-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S800000x16 : Shape := ⟨2, ![800000, 16]⟩
abbrev S4096 : Shape := ⟨1, ![4096]⟩
abbrev S32x256 : Shape := ⟨2, ![32, 256]⟩
abbrev S256 : Shape := ⟨1, ![256]⟩
abbrev S16x256 : Shape := ⟨2, ![16, 256]⟩
abbrev S256x256 : Shape := ⟨2, ![256, 256]⟩
abbrev S257x256 : Shape := ⟨2, ![257, 256]⟩
abbrev S256x1 : Shape := ⟨2, ![256, 1]⟩
abbrev S1 : Shape := ⟨1, ![1]⟩
abbrev S2x800000 : Shape := ⟨2, ![2, 800000]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S4096 : S_.BroadcastsInDim S4096 (![] : Fin 0 → Fin S4096.rank)
  reducesTo_S4096_S_d0 : S4096.ReducesTo [0] S_
  bcast_S_S32x256 : S_.BroadcastsInDim S32x256 (![] : Fin 0 → Fin S32x256.rank)
  reducesTo_S32x256_S_d0_1 : S32x256.ReducesTo [0, 1] S_
  bcast_S_S256 : S_.BroadcastsInDim S256 (![] : Fin 0 → Fin S256.rank)
  reducesTo_S256_S_d0 : S256.ReducesTo [0] S_
  bcast_S_S16x256 : S_.BroadcastsInDim S16x256 (![] : Fin 0 → Fin S16x256.rank)
  reducesTo_S16x256_S_d0_1 : S16x256.ReducesTo [0, 1] S_
  bcast_S_S256x256 : S_.BroadcastsInDim S256x256 (![] : Fin 0 → Fin S256x256.rank)
  reducesTo_S256x256_S_d0_1 : S256x256.ReducesTo [0, 1] S_
  bcast_S_S257x256 : S_.BroadcastsInDim S257x256 (![] : Fin 0 → Fin S257x256.rank)
  reducesTo_S257x256_S_d0_1 : S257x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : IVec S4096 32) (main_v83 : IVec S_ 1) (main_v84 : IVec S4096 32) : IVec S_ 1 :=
  let main_v85 : IVec S4096 1 := cmpi .sge main_arg18 main_v84
  let main_c_33 : IVec S_ 32 := constantI S_ 32 50000#32
  let main_v86 : IVec S4096 32 := broadcastInDim S4096 ![] bcast_S_S4096 main_c_33
  let main_v87 : IVec S4096 1 := cmpi .slt main_arg18 main_v86
  let main_v88 : IVec S4096 1 := andi main_v85 main_v87
  let main_c_34 : IVec S_ 1 := constantI S_ 1 1#1
  let main_v89 : IVec S_ 1 := (fun x v => Host.reduce IntOp.andi x v reducesTo_S4096_S_d0 h_S_) main_v88 main_c_34
  let main_v90 : IVec S_ 1 := andi main_v83 main_v89
  main_v90

def fn_part4 {F : FTy → Type} [FloatOps F] (main_arg14 : FVec F S256 .f32) (main_arg15 : FVec F S256x1 .f32) (main_arg16 : FVec F S1 .f32) (main_arg18 : IVec S4096 32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x1 .f32 := Host.absf main_arg15
  let main_cst_28 : FVec F S_ .f32 := constant S_ .f32 0x7F800000#32
  let main_v75 : FVec F S256x1 .f32 := broadcastInDim S256x1 ![] bcast_S_S256x1 main_cst_28
  let main_v76 : IVec S256x1 1 := cmpf .olt main_v74 main_v75
  let main_c_29 : IVec S_ 1 := constantI S_ 1 1#1
  let main_v77 : IVec S_ 1 := (fun x v => Host.reduce IntOp.andi x v reducesTo_S256x1_S_d0_1 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_c_32 : IVec S_ 32 := constantI S_ 32 0#32
  let main_v84 : IVec S4096 32 := broadcastInDim S4096 ![] bcast_S_S4096 main_c_32
  fn_part5 (F := F) main_arg18 main_v83 main_v84

def fn_part3 {F : FTy → Type} [FloatOps F] (main_arg11 : FVec F S257x256 .f32) (main_arg12 : FVec F S256 .f32) (main_arg13 : FVec F S256x256 .f32) (main_arg14 : FVec F S256 .f32) (main_arg15 : FVec F S256x1 .f32) (main_arg16 : FVec F S1 .f32) (main_arg18 : IVec S4096 32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S257x256 .f32 := Host.absf main_arg11
  let main_cst_20 : FVec F S_ .f32 := constant S_ .f32 0x7F800000#32
  let main_v55 : FVec F S257x256 .f32 := broadcastInDim S257x256 ![] bcast_S_S257x256 main_cst_20
  let main_v56 : IVec S257x256 1 := cmpf .olt main_v54 main_v55
  let main_c_21 : IVec S_ 1 := constantI S_ 1 1#1
  let main_v57 : IVec S_ 1 := (fun x v => Host.reduce IntOp.andi x v reducesTo_S257x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_arg15 main_arg16 main_arg18 main_v63 main_v67

def fn_part2 {F : FTy → Type} [FloatOps F] (main_arg7 : FVec F S256x256 .f32) (main_arg8 : FVec F S256 .f32) (main_arg9 : FVec F S256x256 .f32) (main_arg10 : FVec F S256 .f32) (main_arg11 : FVec F S257x256 .f32) (main_arg12 : FVec F S256 .f32) (main_arg13 : FVec F S256x256 .f32) (main_arg14 : FVec F S256 .f32) (main_arg15 : FVec F S256x1 .f32) (main_arg16 : FVec F S1 .f32) (main_arg18 : IVec S4096 32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg18 main_v48 main_v49 main_v50

def fn_part1 {F : FTy → Type} [FloatOps F] (main_arg4 : FVec F S256 .f32) (main_arg5 : FVec F S16x256 .f32) (main_arg6 : FVec F S256 .f32) (main_arg7 : FVec F S256x256 .f32) (main_arg8 : FVec F S256 .f32) (main_arg9 : FVec F S256x256 .f32) (main_arg10 : FVec F S256 .f32) (main_arg11 : FVec F S257x256 .f32) (main_arg12 : FVec F S256 .f32) (main_arg13 : FVec F S256x256 .f32) (main_arg14 : FVec F S256 .f32) (main_arg15 : FVec F S256x1 .f32) (main_arg16 : FVec F S1 .f32) (main_arg18 : IVec S4096 32) (main_v13 : IVec S_ 1) (main_v16 : IVec S32x256 1) : IVec S_ 1 :=
  let main_c_5 : IVec S_ 1 := constantI S_ 1 1#1
  let main_v17 : IVec S_ 1 := (fun x v => Host.reduce IntOp.andi x v reducesTo_S32x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S16x256 .f32 := Host.absf main_arg5
  let main_cst_8 : FVec F S_ .f32 := constant S_ .f32 0x7F800000#32
  let main_v25 : FVec F S16x256 .f32 := broadcastInDim S16x256 ![] bcast_S_S16x256 main_cst_8
  let main_v26 : IVec S16x256 1 := cmpf .olt main_v24 main_v25
  let main_c_9 : IVec S_ 1 := constantI S_ 1 1#1
  let main_v27 : IVec S_ 1 := (fun x v => Host.reduce IntOp.andi x v reducesTo_S16x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg18 main_v33

def fn {F : FTy → Type} [FloatOps F] (main_arg0 : FVec F S50000x32 .f32) (main_arg1 : FVec F S800000x16 .f32) (main_arg2 : FVec F S4096 .f32) (main_arg3 : FVec F S32x256 .f32) (main_arg4 : FVec F S256 .f32) (main_arg5 : FVec F S16x256 .f32) (main_arg6 : FVec F S256 .f32) (main_arg7 : FVec F S256x256 .f32) (main_arg8 : FVec F S256 .f32) (main_arg9 : FVec F S256x256 .f32) (main_arg10 : FVec F S256 .f32) (main_arg11 : FVec F S257x256 .f32) (main_arg12 : FVec F S256 .f32) (main_arg13 : FVec F S256x256 .f32) (main_arg14 : FVec F S256 .f32) (main_arg15 : FVec F S256x1 .f32) (main_arg16 : FVec F S1 .f32) (main_arg17 : IVec S2x800000 32) (main_arg18 : IVec S4096 32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S800000x16 .f32 := Host.absf main_arg1
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S32x256 .f32 := Host.absf main_arg3
  let main_cst_4 : FVec F S_ .f32 := constant S_ .f32 0x7F800000#32
  let main_v15 : FVec F S32x256 .f32 := broadcastInDim S32x256 ![] bcast_S_S32x256 main_cst_4
  let main_v16 : IVec S32x256 1 := cmpf .olt main_v14 main_v15
  fn_part1 (F := F) main_arg4 main_arg5 main_arg6 main_arg7 main_arg8 main_arg9 main_arg10 main_arg11 main_arg12 main_arg13 main_arg14 main_arg15 main_arg16 main_arg18 main_v13 main_v16
-- ==== Kernel.lean ====
abbrev S50000x32 : Shape := ⟨2, ![50000, 32]⟩
abbrev S800000x16 : Shape := ⟨2, ![800000, 16]⟩
abbrev S4096 : Shape := ⟨1, ![4096]⟩
abbrev S32x256 : Shape := ⟨2, ![32, 256]⟩
abbrev S256 : Shape := ⟨1, ![256]⟩
abbrev S16x256 : Shape := ⟨2, ![16, 256]⟩
abbrev S256x256 : Shape := ⟨2, ![256, 256]⟩
abbrev S257x256 : Shape := ⟨2, ![257, 256]⟩
abbrev S256x1 : Shape := ⟨2, ![256, 1]⟩
abbrev S1 : Shape := ⟨1, ![1]⟩
abbrev S2x800000 : Shape := ⟨2, ![2, 800000]⟩
abbrev S1x800000 : Shape := ⟨2, ![1, 800000]⟩
abbrev S800000 : Shape := ⟨1, ![800000]⟩
abbrev S1x256 : Shape := ⟨2, ![1, 256]⟩
abbrev S50000x256 : Shape := ⟨2, ![50000, 256]⟩
abbrev S5000x32 : Shape := ⟨2, ![5000, 32]⟩
abbrev S5000x256 : Shape := ⟨2, ![5000, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S4096x1 : Shape := ⟨2, ![4096, 1]⟩
abbrev S1x1 : Shape := ⟨2, ![1, 1]⟩
abbrev S4096x256 : Shape := ⟨2, ![4096, 256]⟩

abbrev nBuf : Space → Nat
  | .hbm => 151
  | .vmem => 38
  | .smem => 0
  | _ => 0

abbrev hbmTy0_0 (i : Nat) : BufTy := match i % 128 with
  | 0 => ⟨S50000x32, .f32⟩
  | 1 => ⟨S800000x16, .f32⟩
  | 2 => ⟨S4096, .f32⟩
  | 3 => ⟨S32x256, .f32⟩
  | 4 => ⟨S256, .f32⟩
  | 5 => ⟨S16x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S257x256, .f32⟩
  | 12 => ⟨S256, .f32⟩
  | 13 => ⟨S256x256, .f32⟩
  | 14 => ⟨S256, .f32⟩
  | 15 => ⟨S256x1, .f32⟩
  | 16 => ⟨S1, .f32⟩
  | 17 => ⟨S2x800000, .i32⟩
  | 18 => ⟨S4096, .i32⟩
  | 19 => ⟨S1x800000, .i32⟩
  | 20 => ⟨S800000, .i32⟩
  | 21 => ⟨S1x800000, .i32⟩
  | 22 => ⟨S800000, .i32⟩
  | 23 => ⟨S1x256, .f32⟩
  | 24 => ⟨S50000x256, .f32⟩
  | 25 => ⟨S_, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S_, .f32⟩
  | 36 => ⟨S800000, .f32⟩
  | 37 => ⟨S50000, .f32⟩
  | 38 => ⟨S_, .f32⟩
  | 39 => ⟨S50000, .f32⟩
  | 40 => ⟨S50000, .f32⟩
  | 41 => ⟨S50000, .f32⟩
  | 42 => ⟨S50000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000, .f32⟩
  | 61 => ⟨S800000, .f32⟩
  | 62 => ⟨S_, .f32⟩
  | 63 => ⟨S1x256, .f32⟩
  | 64 => ⟨S50000x256, .f32⟩
  | 65 => ⟨S800000x1, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x256, .f32⟩
  | 75 => ⟨S800000x256, .f32⟩
  | 76 => ⟨S800000x256, .f32⟩
  | 77 => ⟨S50000x1, .f32⟩
  | 78 => ⟨S50000x256, .f32⟩
  | 79 => ⟨S50000x256, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S50000x256, .f32⟩
  | 89 => ⟨S1x256, .f32⟩
  | 90 => ⟨S50000x256, .f32⟩
  | 91 => ⟨S_, .f32⟩
  | 92 => ⟨S1x256, .f32⟩
  | 93 => ⟨S50000x256, .f32⟩
  | 94 => ⟨S800000x1, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x256, .f32⟩
  | 104 => ⟨S800000x256, .f32⟩
  | 105 => ⟨S800000x256, .f32⟩
  | 106 => ⟨S50000x1, .f32⟩
  | 107 => ⟨S50000x256, .f32⟩
  | 108 => ⟨S50000x256, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S50000x256, .f32⟩
  | 118 => ⟨S1x256, .f32⟩
  | 119 => ⟨S50000x256, .f32⟩
  | 120 => ⟨S_, .i32⟩
  | 121 => ⟨S4096, .i32⟩
  | 122 => ⟨S4096, .i1⟩
  | 123 => ⟨S_, .i32⟩
  | 124 => ⟨S4096, .i32⟩
  | 125 => ⟨S4096, .i32⟩
  | 126 => ⟨S4096, .i32⟩
  | 127 => ⟨S4096x1, .i32⟩
  | _ => ⟨S50000x32, .f32⟩

abbrev hbmTy0_1 (i : Nat) : BufTy := match i % 128 with
  | 0 => ⟨S1, .i32⟩
  | 1 => ⟨S_, .i32⟩
  | 2 => ⟨S4096x1, .i32⟩
  | 3 => ⟨S4096x1, .i1⟩
  | 4 => ⟨S1x1, .i32⟩
  | 5 => ⟨S4096x1, .i32⟩
  | 6 => ⟨S4096x1, .i1⟩
  | 7 => ⟨S4096x1, .i1⟩
  | 8 => ⟨S_, .i1⟩
  | 9 => ⟨S4096, .i1⟩
  | 10 => ⟨S4096x256, .f32⟩
  | 11 => ⟨S4096x256, .i1⟩
  | 12 => ⟨S_, .f32⟩
  | 13 => ⟨S4096x256, .f32⟩
  | 14 => ⟨S4096x256, .f32⟩
  | 15 => ⟨S256x256, .f32⟩
  | 16 => ⟨S1x256, .f32⟩
  | 17 => ⟨S4096x1, .f32⟩
  | 18 => ⟨S1x256, .f32⟩
  | 19 => ⟨S1x256, .f32⟩
  | 20 => ⟨S1x1, .f32⟩
  | 21 => ⟨S1x1, .f32⟩
  | 22 => ⟨S1, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S32x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x256, .f32⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S1x256, .f32⟩
  | .local _ .vmem, ⟨15, _⟩ => ⟨S5000x256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | .local _ .vmem, ⟨19, _⟩ => ⟨S256x256, .f32⟩
  | .local _ .vmem, ⟨20, _⟩ => ⟨S1x256, .f32⟩
  | .local _ .vmem, ⟨21, _⟩ => ⟨S5000x256, .f32⟩
  | .local _ .vmem, ⟨22, _⟩ => ⟨S5000x256, .f32⟩
  | .local _ .vmem, ⟨23, _⟩ => ⟨S5000x256, .f32⟩
  | .local _ .vmem, ⟨24, _⟩ => ⟨S5000x256, .f32⟩
  | .local _ .vmem, ⟨25, _⟩ => ⟨S1x256, .f32⟩
  | .local _ .vmem, ⟨26, _⟩ => ⟨S5000x256, .f32⟩
  | .local _ .vmem, ⟨27, _⟩ => ⟨S5000x256, .f32⟩
  | .local _ .vmem, ⟨28, _⟩ => ⟨S4096x256, .f32⟩
  | .local _ .vmem, ⟨29, _⟩ => ⟨S4096x1, .f32⟩
  | .local _ .vmem, ⟨30, _⟩ => ⟨S256x256, .f32⟩
  | .local _ .vmem, ⟨31, _⟩ => ⟨S1x256, .f32⟩
  | .local _ .vmem, ⟨32, _⟩ => ⟨S1x256, .f32⟩
  | .local _ .vmem, ⟨33, _⟩ => ⟨S256x256, .f32⟩
  | .local _ .vmem, ⟨34, _⟩ => ⟨S1x256, .f32⟩
  | .local _ .vmem, ⟨35, _⟩ => ⟨S256x1, .f32⟩
  | .local _ .vmem, ⟨36, _⟩ => ⟨S1x1, .f32⟩
  | .local _ .vmem, ⟨37, _⟩ => ⟨S1x1, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_c : Ref sig .tc := ⟨.hbm, 27, rfl⟩
abbrev main_v7 : Ref sig .tc := ⟨.hbm, 28, rfl⟩
abbrev main_v8 : Ref sig .tc := ⟨.hbm, 29, rfl⟩
abbrev main_c_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_3 : Ref sig .tc := ⟨.hbm, 43, rfl⟩
abbrev main_v19 : Ref sig .tc := ⟨.hbm, 44, rfl⟩
abbrev main_v20 : Ref sig .tc := ⟨.hbm, 45, rfl⟩
abbrev main_c_4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_c_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_7 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_8 : Ref sig .tc := ⟨.hbm, 66, rfl⟩
abbrev main_v37 : Ref sig .tc := ⟨.hbm, 67, rfl⟩
abbrev main_v38 : Ref sig .tc := ⟨.hbm, 68, rfl⟩
abbrev main_c_9 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_c_10 : Ref sig .tc := ⟨.hbm, 80, rfl⟩
abbrev main_v49 : Ref sig .tc := ⟨.hbm, 81, rfl⟩
abbrev main_v50 : Ref sig .tc := ⟨.hbm, 82, rfl⟩
abbrev main_c_11 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_12 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_13 : Ref sig .tc := ⟨.hbm, 95, rfl⟩
abbrev main_v61 : Ref sig .tc := ⟨.hbm, 96, rfl⟩
abbrev main_v62 : Ref sig .tc := ⟨.hbm, 97, rfl⟩
abbrev main_c_14 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_c_15 : Ref sig .tc := ⟨.hbm, 109, rfl⟩
abbrev main_v73 : Ref sig .tc := ⟨.hbm, 110, rfl⟩
abbrev main_v74 : Ref sig .tc := ⟨.hbm, 111, rfl⟩
abbrev main_c_16 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_call0_c : Ref sig .tc := ⟨.hbm, 120, rfl⟩
abbrev main_call0_v0 : Ref sig .tc := ⟨.hbm, 121, rfl⟩
abbrev main_call0_v1 : Ref sig .tc := ⟨.hbm, 122, rfl⟩
abbrev main_call0_c_0 : Ref sig .tc := ⟨.hbm, 123, rfl⟩
abbrev main_call0_v2 : Ref sig .tc := ⟨.hbm, 124, rfl⟩
abbrev main_call0_v3 : Ref sig .tc := ⟨.hbm, 125, rfl⟩
abbrev main_call0_v4 : Ref sig .tc := ⟨.hbm, 126, rfl⟩
abbrev main_call0_v5 : Ref sig .tc := ⟨.hbm, 127, rfl⟩
abbrev main_call0_c_1 : Ref sig .tc := ⟨.hbm, 128, rfl⟩
abbrev main_call0_c_2 : Ref sig .tc := ⟨.hbm, 129, rfl⟩
abbrev main_call0_v6 : Ref sig .tc := ⟨.hbm, 130, rfl⟩
abbrev main_call0_v7 : Ref sig .tc := ⟨.hbm, 131, rfl⟩
abbrev main_call0_v8 : Ref sig .tc := ⟨.hbm, 132, rfl⟩
abbrev main_call0_v9 : Ref sig .tc := ⟨.hbm, 133, rfl⟩
abbrev main_call0_v10 : Ref sig .tc := ⟨.hbm, 134, rfl⟩
abbrev main_call0_v11 : Ref sig .tc := ⟨.hbm, 135, rfl⟩
abbrev main_call0_c_3 : Ref sig .tc := ⟨.hbm, 136, rfl⟩
abbrev main_call0_v12 : Ref sig .tc := ⟨.hbm, 137, rfl⟩
abbrev main_call0_v13 : Ref sig .tc := ⟨.hbm, 138, rfl⟩
abbrev main_call0_v14 : Ref sig .tc := ⟨.hbm, 139, rfl⟩
abbrev main_call0_cst : Ref sig .tc := ⟨.hbm, 140, rfl⟩
abbrev main_call0_v15 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg4_0 : Ref sig .tc := ⟨.vmem, 32, rfl⟩
abbrev cc5_stg5_0 : Ref sig .tc := ⟨.vmem, 33, rfl⟩
abbrev cc5_stg6_0 : Ref sig .tc := ⟨.vmem, 34, rfl⟩
abbrev cc5_stg7_0 : Ref sig .tc := ⟨.vmem, 35, rfl⟩
abbrev cc5_stg8_0 : Ref sig .tc := ⟨.vmem, 36, rfl⟩
abbrev cc5_stg9_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem1_0 : DmaSem sig := 29
abbrev cc5_sem2_0 : DmaSem sig := 30
abbrev cc5_sem3_0 : DmaSem sig := 31
abbrev cc5_sem4_0 : DmaSem sig := 32
abbrev cc5_sem5_0 : DmaSem sig := 33
abbrev cc5_sem6_0 : DmaSem sig := 34
abbrev cc5_sem7_0 : DmaSem sig := 35
abbrev cc5_sem8_0 : DmaSem sig := 36
abbrev cc5_sem9_0 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S4096x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S4096x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S256x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S256x1 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x1 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x1 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S256_S1x256 : S256.ShapeCasts S1x256
  inb_S5000x32_S5000x32_0_0 : ∀ a, (![0, 0] : Fin 2 → Nat) a + S5000x32.size a ≤ S5000x32.size a
  h_S5000x32 : 0 < S5000x32.numel
  inb_S32x256_S32x256_0_0 : ∀ a, (![0, 0] : Fin 2 → Nat) a + S32x256.size a ≤ S32x256.size a
  h_S32x256 : 0 < S32x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S1x256 : S_.BroadcastsInDim S1x256 (![] : Fin 0 → Fin S1x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  bcast_S800000x1_S800000x256_0_1 : S800000x1.BroadcastsInDim S800000x256 (![0, 1] : Fin 2 → Fin S800000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x256_0 : S4096.BroadcastsInDim S4096x256 (![0] : Fin 1 → Fin S4096x256.rank)
  bcast_S_S4096x256 : S_.BroadcastsInDim S4096x256 (![] : Fin 0 → Fin S4096x256.rank)
  slices_S257x256_S256x256_0_0 : S257x256.Slices ![0, 0] S256x256
  slices_S257x256_S1x256_256_0 : S257x256.Slices ![256, 0] S1x256
  shapeCasts_S4096_S4096x1 : S4096.ShapeCasts S4096x1
  shapeCasts_S1_S1x1 : S1.ShapeCasts S1x1
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S256x256_S256x256 : S256x256.ShapeCasts S256x256
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x256 : S4096x1.Broadcasts S4096x256
  broadcasts_S1x256_S4096x256 : S1x256.Broadcasts S4096x256
  reduces_S4096x256_S256 : S4096x256.Reduces [0] S256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S1 : S1x1.ShapeCasts S1
  dot_S5000x32_S32x256_S5000x256_1_0_0_1_n_n_wf : DotDims.WF S5000x32 S32x256 S5000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x256_S256x256_S5000x256_1_0_0_1_n_n_wf : DotDims.WF S5000x256 S256x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  gather_S50000x256_S4096x1_S4096x256_1_0_n_n_0_1_1256_wf : GatherDims.WF S50000x256 S4096x1 S4096x256 [1] [0] [] [0] [] 1 ![1, 256]
  dot_S4096x256_S256x256_S4096x256_1_0_0_1_n_n_wf : DotDims.WF S4096x256 S256x256 S4096x256 [1] [0] [0] [1] [] []
  dot_S1x256_S256x1_S1x1_1_0_0_1_n_n_wf : DotDims.WF S1x256 S256x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S50000x32.size a
  hwx0_0 : ∀ i : grid0.Coords, EltTy.bits .f32 = 32 ∨ (Rect.block (s := S50000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x256.size a ≤ S50000x256.size a
  hwx3_3 : ∀ i : grid3.Coords, EltTy.bits .f32 = 32 ∨ (Rect.block (s := S50000x256) S5000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x256.size a ≤ S50000x256.size a
  hwx4_2 : ∀ i : grid4.Coords, EltTy.bits .f32 = 32 ∨ (Rect.block (s := S50000x256) S5000x256.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S4096x256.size a ≤ S4096x256.size a
  hwx5_0 : ∀ i : grid5.Coords, EltTy.bits .f32 = 32 ∨ (Rect.block (s := S4096x256) S4096x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S4096x1.size a ≤ S4096x1.size a
  hwx5_1 : ∀ i : grid5.Coords, EltTy.bits .f32 = 32 ∨ (Rect.block (s := S4096x1) S4096x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .f32 = 32 ∨ (Rect.block (s := S256x256) S256x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x256.size a ≤ S256x256.size a
  hwx5_5 : ∀ i : grid5.Coords, EltTy.bits .f32 = 32 ∨ (Rect.block (s := S256x256) S256x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S256x1.size a ≤ S256x1.size a
  hwx5_7 : ∀ i : grid5.Coords, EltTy.bits .f32 = 32 ∨ (Rect.block (s := S256x1) S256x1.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x1.size a ≤ S1x1.size a
  hwx5_8 : ∀ i : grid5.Coords, EltTy.bits .f32 = 32 ∨ (Rect.block (s := S1x1) S1x1.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x1.size a ≤ S1x1.size a
  hwx5_9 : ∀ i : grid5.Coords, EltTy.bits .f32 = 32 ∨ (Rect.block (s := S1x1) S1x1.size (cc5_transform_9 i) (hinb5_9 i)).WholeWords (EltTy.packing .f32)

variable [Facts₀]

def dot_S5000x32_S32x256_S5000x256_1_0_0_1_n_n : DotDims S5000x32 S32x256 S5000x256 where
  lhsContracting := [1]
  rhsContracting := [0]
  lhsNonContracting := [0]
  rhsNonContracting := [1]
  lhsBatch := []
  rhsBatch := []
  wf := dot_S5000x32_S32x256_S5000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def gather_S50000x256_S4096x1_S4096x256_1_0_n_n_0_1_1256 : GatherDims S50000x256 S4096x1 S4096x256 where
  offsetDims := [1]
  collapsedSliceDims := [0]
  operandBatchingDims := []
  startIndicesBatchingDims := []
  startIndexMap := [0]
  indexVectorDim := 1
  sliceSizes := ![1, 256]
  wf := gather_S50000x256_S4096x1_S4096x256_1_0_n_n_0_1_1256_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S1x256_S256x1_S1x1_1_0_0_1_n_n : DotDims S1x256 S256x1 S1x1 where
  lhsContracting := [1]
  rhsContracting := [0]
  lhsNonContracting := [0]
  rhsNonContracting := [1]
  lhsBatch := []
  rhsBatch := []
  wf := dot_S1x256_S256x1_S1x1_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S5000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v79) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v81) S5000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v82) S4096x256.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v85) S4096x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v83) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v84) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v86) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg13) S256x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v87) S1x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg15) S256x1.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v88) S1x1.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v89) S1x1.size cc5_transform_9 reads5_9 true true 1 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S50000x32 : Shape := ⟨2, ![50000, 32]⟩
abbrev S800000x16 : Shape := ⟨2, ![800000, 16]⟩
abbrev S4096 : Shape := ⟨1, ![4096]⟩
abbrev S32x256 : Shape := ⟨2, ![32, 256]⟩
abbrev S256 : Shape := ⟨1, ![256]⟩
abbrev S16x256 : Shape := ⟨2, ![16, 256]⟩
abbrev S256x256 : Shape := ⟨2, ![256, 256]⟩
abbrev S257x256 : Shape := ⟨2, ![257, 256]⟩
abbrev S256x1 : Shape := ⟨2, ![256, 1]⟩
abbrev S1 : Shape := ⟨1, ![1]⟩
abbrev S2x800000 : Shape := ⟨2, ![2, 800000]⟩
abbrev S1x800000 : Shape := ⟨2, ![1, 800000]⟩
abbrev S800000 : Shape := ⟨1, ![800000]⟩
abbrev S50000x256 : Shape := ⟨2, ![50000, 256]⟩
abbrev S1x256 : Shape := ⟨2, ![1, 256]⟩
abbrev S800000x256 : Shape := ⟨2, ![800000, 256]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S4096x1 : Shape := ⟨2, ![4096, 1]⟩
abbrev S4096x256 : Shape := ⟨2, ![4096, 256]⟩
abbrev S4096x257 : Shape := ⟨2, ![4096, 257]⟩
abbrev S1x1 : Shape := ⟨2, ![1, 1]⟩

abbrev nBuf : Space → Nat
  | .hbm => 208
  | .vmem => 0
  | .smem => 0
  | _ => 0

abbrev hbmTy0_0 (i : Nat) : BufTy := match i % 128 with
  | 0 => ⟨S50000x32, .f32⟩
  | 1 => ⟨S800000x16, .f32⟩
  | 2 => ⟨S4096, .f32⟩
  | 3 => ⟨S32x256, .f32⟩
  | 4 => ⟨S256, .f32⟩
  | 5 => ⟨S16x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S257x256, .f32⟩
  | 12 => ⟨S256, .f32⟩
  | 13 => ⟨S256x256, .f32⟩
  | 14 => ⟨S256, .f32⟩
  | 15 => ⟨S256x1, .f32⟩
  | 16 => ⟨S1, .f32⟩
  | 17 => ⟨S2x800000, .i32⟩
  | 18 => ⟨S4096, .i32⟩
  | 19 => ⟨S1x800000, .i32⟩
  | 20 => ⟨S800000, .i32⟩
  | 21 => ⟨S1x800000, .i32⟩
  | 22 => ⟨S800000, .i32⟩
  | 23 => ⟨S50000x256, .f32⟩
  | 24 => ⟨S1x256, .f32⟩
  | 25 => ⟨S50000x256, .f32⟩
  | 26 => ⟨S50000x256, .f32⟩
  | 27 => ⟨S800000x256, .f32⟩
  | 28 => ⟨S1x256, .f32⟩
  | 29 => ⟨S800000x256, .f32⟩
  | 30 => ⟨S800000x256, .f32⟩
  | 31 => ⟨S50000x256, .f32⟩
  | 32 => ⟨S_, .f32⟩
  | 33 => ⟨S50000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S_, .f32⟩
  | 43 => ⟨S800000, .f32⟩
  | 44 => ⟨S50000, .f32⟩
  | 45 => ⟨S_, .f32⟩
  | 46 => ⟨S50000, .f32⟩
  | 47 => ⟨S50000, .f32⟩
  | 48 => ⟨S50000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000, .f32⟩
  | 67 => ⟨S800000, .f32⟩
  | 68 => ⟨S_, .f32⟩
  | 69 => ⟨S50000x256, .f32⟩
  | 70 => ⟨S800000x1, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x256, .f32⟩
  | 80 => ⟨S800000x256, .f32⟩
  | 81 => ⟨S800000x256, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S50000x256, .f32⟩
  | 91 => ⟨S50000, .f32⟩
  | 92 => ⟨S50000x1, .f32⟩
  | 93 => ⟨S50000x256, .f32⟩
  | 94 => ⟨S50000x256, .f32⟩
  | 95 => ⟨S50000x256, .f32⟩
  | 96 => ⟨S1x256, .f32⟩
  | 97 => ⟨S50000x256, .f32⟩
  | 98 => ⟨S50000x256, .f32⟩
  | 99 => ⟨S_, .f32⟩
  | 100 => ⟨S50000x256, .f32⟩
  | 101 => ⟨S50000x256, .f32⟩
  | 102 => ⟨S50000x256, .f32⟩
  | 103 => ⟨S_, .f32⟩
  | 104 => ⟨S50000, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S_, .f32⟩
  | 114 => ⟨S800000, .f32⟩
  | 115 => ⟨S50000, .f32⟩
  | 116 => ⟨S_, .f32⟩
  | 117 => ⟨S50000, .f32⟩
  | 118 => ⟨S50000, .f32⟩
  | 119 => ⟨S50000, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x32, .f32⟩

abbrev hbmTy0_1 (i : Nat) : BufTy := match i % 128 with
  | 0 => ⟨S800000, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000, .f32⟩
  | 10 => ⟨S800000, .f32⟩
  | 11 => ⟨S_, .f32⟩
  | 12 => ⟨S50000x256, .f32⟩
  | 13 => ⟨S800000x1, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x256, .f32⟩
  | 23 => ⟨S800000x256, .f32⟩
  | 24 => ⟨S800000x256, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S50000x256, .f32⟩
  | 34 => ⟨S50000, .f32⟩
  | 35 => ⟨S50000x1, .f32⟩
  | 36 => ⟨S50000x256, .f32⟩
  | 37 => ⟨S50000x256, .f32⟩
  | 38 => ⟨S50000x256, .f32⟩
  | 39 => ⟨S1x256, .f32⟩
  | 40 => ⟨S50000x256, .f32⟩
  | 41 => ⟨S50000x256, .f32⟩
  | 42 => ⟨S_, .f32⟩
  | 43 => ⟨S50000x256, .f32⟩
  | 44 => ⟨S50000x256, .f32⟩
  | 45 => ⟨S_, .i32⟩
  | 46 => ⟨S4096, .i32⟩
  | 47 => ⟨S4096, .i1⟩
  | 48 => ⟨S_, .i32⟩
  | 49 => ⟨S4096, .i32⟩
  | 50 => ⟨S4096, .i32⟩
  | 51 => ⟨S4096, .i32⟩
  | 52 => ⟨S4096x1, .i32⟩
  | 53 => ⟨S4096x256, .f32⟩
  | 54 => ⟨S4096x1, .f32⟩
  | 55 => ⟨S4096x257, .f32⟩
  | 56 => ⟨S4096x256, .f32⟩
  | 57 => ⟨S1x256, .f32⟩
  | 58 => ⟨S4096x256, .f32⟩
  | 59 => ⟨S4096x256, .f32⟩
  | 60 => ⟨S_, .f32⟩
  | 61 => ⟨S4096x256, .f32⟩
  | 62 => ⟨S4096x256, .f32⟩
  | 63 => ⟨S4096x256, .f32⟩
  | 64 => ⟨S1x256, .f32⟩
  | 65 => ⟨S4096x256, .f32⟩
  | 66 => ⟨S4096x256, .f32⟩
  | 67 => ⟨S_, .f32⟩
  | 68 => ⟨S4096x256, .f32⟩
  | 69 => ⟨S4096x256, .f32⟩
  | 70 => ⟨S_, .f32⟩
  | 71 => ⟨S256, .f32⟩
  | 72 => ⟨S1x256, .f32⟩
  | 73 => ⟨S_, .f32⟩
  | 74 => ⟨S1x256, .f32⟩
  | 75 => ⟨S1x256, .f32⟩
  | 76 => ⟨S1x1, .f32⟩
  | 77 => ⟨S1x1, .f32⟩
  | 78 => ⟨S1x1, .f32⟩
  | 79 => ⟨S1, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_3 : Ref sig .tc := ⟨.hbm, 49, rfl⟩
abbrev main_v25 : Ref sig .tc := ⟨.hbm, 50, rfl⟩
abbrev main_v26 : Ref sig .tc := ⟨.hbm, 51, rfl⟩
abbrev main_c_4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_5 : Ref sig .tc := ⟨.hbm, 58, rfl⟩
abbrev main_v32 : Ref sig .tc := ⟨.hbm, 59, rfl⟩
abbrev main_v33 : Ref sig .tc := ⟨.hbm, 60, rfl⟩
abbrev main_c_6 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_c_8 : Ref sig .tc := ⟨.hbm, 71, rfl⟩
abbrev main_v42 : Ref sig .tc := ⟨.hbm, 72, rfl⟩
abbrev main_v43 : Ref sig .tc := ⟨.hbm, 73, rfl⟩
abbrev main_c_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_v51 : Ref sig .tc := ⟨.hbm, 83, rfl⟩
abbrev main_v52 : Ref sig .tc := ⟨.hbm, 84, rfl⟩
abbrev main_c_11 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call0_cst : Ref sig .tc := ⟨.hbm, 99, rfl⟩
abbrev main_call0_v0 : Ref sig .tc := ⟨.hbm, 100, rfl⟩
abbrev main_v66 : Ref sig .tc := ⟨.hbm, 101, rfl⟩
abbrev main_v67 : Ref sig .tc := ⟨.hbm, 102, rfl⟩
abbrev main_cst_12 : Ref sig .tc := ⟨.hbm, 103, rfl⟩
abbrev main_v68 : Ref sig .tc := ⟨.hbm, 104, rfl⟩
abbrev main_c_13 : Ref sig .tc := ⟨.hbm, 105, rfl⟩
abbrev main_v69 : Ref sig .tc := ⟨.hbm, 106, rfl⟩
abbrev main_v70 : Ref sig .tc := ⟨.hbm, 107, rfl⟩
abbrev main_c_14 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_15 : Ref sig .tc := ⟨.hbm, 113, rfl⟩
abbrev main_v75 : Ref sig .tc := ⟨.hbm, 114, rfl⟩
abbrev main_v76 : Ref sig .tc := ⟨.hbm, 115, rfl⟩
abbrev main_cst_16 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_c_17 : Ref sig .tc := ⟨.hbm, 120, rfl⟩
abbrev main_v80 : Ref sig .tc := ⟨.hbm, 121, rfl⟩
abbrev main_v81 : Ref sig .tc := ⟨.hbm, 122, rfl⟩
abbrev main_c_18 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_c_19 : Ref sig .tc := ⟨.hbm, 129, rfl⟩
abbrev main_v87 : Ref sig .tc := ⟨.hbm, 130, rfl⟩
abbrev main_v88 : Ref sig .tc := ⟨.hbm, 131, rfl⟩
abbrev main_c_20 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_21 : Ref sig .tc := ⟨.hbm, 139, rfl⟩
abbrev main_v95 : Ref sig .tc := ⟨.hbm, 140, rfl⟩
abbrev main_v96 : Ref sig .tc := ⟨.hbm, 141, rfl⟩
abbrev main_c_22 : Ref sig .tc := ⟨.hbm, 142, rfl⟩
abbrev main_v97 : Ref sig .tc := ⟨.hbm, 143, rfl⟩
abbrev main_v98 : Ref sig .tc := ⟨.hbm, 144, rfl⟩
abbrev main_c_23 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_c_24 : Ref sig .tc := ⟨.hbm, 153, rfl⟩
abbrev main_v106 : Ref sig .tc := ⟨.hbm, 154, rfl⟩
abbrev main_v107 : Ref sig .tc := ⟨.hbm, 155, rfl⟩
abbrev main_c_25 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_call1_cst : Ref sig .tc := ⟨.hbm, 170, rfl⟩
abbrev main_call1_v0 : Ref sig .tc := ⟨.hbm, 171, rfl⟩
abbrev main_v121 : Ref sig .tc := ⟨.hbm, 172, rfl⟩
abbrev main_c_26 : Ref sig .tc := ⟨.hbm, 173, rfl⟩
abbrev main_v122 : Ref sig .tc := ⟨.hbm, 174, rfl⟩
abbrev main_v123 : Ref sig .tc := ⟨.hbm, 175, rfl⟩
abbrev main_c_27 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_call2_cst : Ref sig .tc := ⟨.hbm, 188, rfl⟩
abbrev main_call2_v0 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_call3_cst : Ref sig .tc := ⟨.hbm, 195, rfl⟩
abbrev main_call3_v0 : Ref sig .tc := ⟨.hbm, 196, rfl⟩
abbrev main_v140 : Ref sig .tc := ⟨.hbm, 197, rfl⟩
abbrev main_cst_28 : Ref sig .tc := ⟨.hbm, 198, rfl⟩
abbrev main_v141 : Ref sig .tc := ⟨.hbm, 199, rfl⟩
abbrev main_v142 : Ref sig .tc := ⟨.hbm, 200, rfl⟩
abbrev main_cst_29 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S1x256_S800000x256_0_1 : S1x256.BroadcastsInDim S800000x256 (![0, 1] : Fin 2 → Fin S800000x256.rank)
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S800000x1_S800000x256_0_1 : S800000x1.BroadcastsInDim S800000x256 (![0, 1] : Fin 2 → Fin S800000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x256_S4096x1_S4096x257_d1 : Shape.Concatenates [S4096x256, S4096x1] S4096x257 1
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  reducesTo_S4096x256_S256_d0 : S4096x256.ReducesTo [0] S256
  h_S_ : 0 < S_.numel
  bcast_S_S1x256 : S_.BroadcastsInDim S1x256 (![] : Fin 0 → Fin S1x256.rank)
  bcast_S1_S1x1_1 : S1.BroadcastsInDim S1x1 (![1] : Fin 1 → Fin S1x1.rank)
  shapeCasts_S1x1_S1 : S1x1.ShapeCasts S1
  dot_S50000x32_S32x256_S50000x256_1_0_0_1_n_n_wf : DotDims.WF S50000x32 S32x256 S50000x256 [1] [0] [0] [1] [] []
  dot_S800000x16_S16x256_S800000x256_1_0_0_1_n_n_wf : DotDims.WF S800000x16 S16x256 S800000x256 [1] [0] [0] [1] [] []
  dot_S50000x256_S256x256_S50000x256_1_0_0_1_n_n_wf : DotDims.WF S50000x256 S256x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  gather_S50000x256_S4096x1_S4096x256_1_0_n_n_0_1_1256_wf : GatherDims.WF S50000x256 S4096x1 S4096x256 [1] [0] [] [0] [] 1 ![1, 256]
  dot_S4096x257_S257x256_S4096x256_1_0_0_1_n_n_wf : DotDims.WF S4096x257 S257x256 S4096x256 [1] [0] [0] [1] [] []
  dot_S4096x256_S256x256_S4096x256_1_0_0_1_n_n_wf : DotDims.WF S4096x256 S256x256 S4096x256 [1] [0] [0] [1] [] []
  dot_S1x256_S256x1_S1x1_1_0_0_1_n_n_wf : DotDims.WF S1x256 S256x1 S1x1 [1] [0] [0] [1] [] []

variable [Facts₀]

def dot_S50000x32_S32x256_S50000x256_1_0_0_1_n_n : DotDims S50000x32 S32x256 S50000x256 where
  lhsContracting := [1]
  rhsContracting := [0]
  lhsNonContracting := [0]
  rhsNonContracting := [1]
  lhsBatch := []
  rhsBatch := []
  wf := dot_S50000x32_S32x256_S50000x256_1_0_0_1_n_n_wf
def dot_S800000x16_S16x256_S800000x256_1_0_0_1_n_n : DotDims S800000x16 S16x256 S800000x256 where
  lhsContracting := [1]
  rhsContracting := [0]
  lhsNonContracting := [0]
  rhsNonContracting := [1]
  lhsBatch := []
  rhsBatch := []
  wf := dot_S800000x16_S16x256_S800000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def gather_S50000x256_S4096x1_S4096x256_1_0_n_n_0_1_1256 : GatherDims S50000x256 S4096x1 S4096x256 where
  offsetDims := [1]
  collapsedSliceDims := [0]
  operandBatchingDims := []
  startIndicesBatchingDims := []
  startIndexMap := [0]
  indexVectorDim := 1
  sliceSizes := ![1, 256]
  wf := gather_S50000x256_S4096x1_S4096x256_1_0_n_n_0_1_1256_wf
def dot_S4096x257_S257x256_S4096x256_1_0_0_1_n_n : DotDims S4096x257 S257x256 S4096x256 where
  lhsContracting := [1]
  rhsContracting := [0]
  lhsNonContracting := [0]
  rhsNonContracting := [1]
  lhsBatch := []
  rhsBatch := []
  wf := dot_S4096x257_S257x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S1x256_S256x1_S1x1_1_0_0_1_n_n : DotDims S1x256 S256x1 S1x1 where
  lhsContracting := [1]
  rhsContracting := [0]
  lhsNonContracting := [0]
  rhsNonContracting := [1]
  lhsBatch := []
  rhsBatch := []
  wf := dot_S1x256_S256x1_S1x1_1_0_0_1_n_n_wf

class Facts : Prop extends Facts₀ where

variable [Facts]
-- ==== Proof.PreRange.lean ====
/-
  What the precondition says of the selection indices: each lies in the range of the node axis.
-/
import proofs.«424608_j1984274891291_2_alg».proof.Defs
import Idealize.ShloMosaic.Lib.ReduceAll
import Idealize.ShloMosaic.Lib.StableHlo.Predicate
import Idealize.ShloMosaic.Lib.ValueIdx

set_option maxRecDepth 16384

noncomputable section

namespace Cert.KernelIdeal.Stage

open Idealize.ShloMosaic Idealize.ShloMosaic.TcCoe Idealize.SL.Sem Idealize.ShloMosaic.ValueIdx
open Cert.KernelIdeal

/-- The rank-0 shape has one index. -/
instance subsingleton_scalar_idx : Subsingleton Cert.Pre_finite_inputs.S_.Idx := ⟨fun a b => funext fun d => d.elim0⟩

/-- The last conjunct of the printed precondition, alone: when the whole conjunction is one at its single index, the
    conjunction over all positions of "0 ≤ index and index < 50000" is one, so both comparisons are one at each position. -/
theorem range_of_last_conjunct [hPre : Cert.Pre_finite_inputs.Facts] (x : IVec Cert.Pre_finite_inputs.S4096 32)
    (v83 : IVec Cert.Pre_finite_inputs.S_ 1) (v84 : IVec Cert.Pre_finite_inputs.S4096 32) (h84 : ∀ i, v84 i = 0#32)
    (e : Cert.Pre_finite_inputs.fn_part5 (F := Ideal) x v83 v84 ix0 = 1#1) (i : Cert.Pre_finite_inputs.S4096.Idx) :
    0 ≤ (x i).toInt ∧ (x i).toInt < 50000 := by
  unfold Cert.Pre_finite_inputs.fn_part5 at e
  dsimp only at e
  have h89 := (IntOp.andi_eq_one.1 e).2
  have h88 := Host.reduce_andi_all _ _ _ _ _ h89 i
  obtain ⟨hge, hlt⟩ := IntOp.andi_eq_one.1 h88
  have hge' : IntOp.cmpi .sge (x i) (v84 i) = 1#1 := hge
  have hlt' : IntOp.cmpi .slt (x i) (50000#32) = 1#1 := hlt
  rw [h84 i, IntOp.cmpi_sge] at hge'
  rw [IntOp.cmpi_slt] at hlt'
  exact ⟨by simpa using hge', by simpa using hlt'⟩

/-- Under the precondition every selection index is a node number. -/
theorem sgen_in_range [hPre : Cert.Pre_finite_inputs.Facts] (m : (ℓ : Loc nD τ sig) → Buf (Elt Ideal) ℓ) (hpre : Cert.Pre_KernelIdeal m) (c : Dev nD) :
    ∀ i : S4096.Idx, 0 ≤ ((m ((c.tc : Thread nD τ).loc main_arg18)) i).toInt ∧ ((m ((c.tc : Thread nD τ).loc main_arg18)) i).toInt < 50000 := by
  intro i
  have e := congrFun (hpre c) ix0
  unfold Cert.Pre_finite_inputs.fn Cert.Pre_finite_inputs.fn_part1 Cert.Pre_finite_inputs.fn_part2 Cert.Pre_finite_inputs.fn_part3
    Cert.Pre_finite_inputs.fn_part4 at e
  dsimp only at e
  exact range_of_last_conjunct _ _ _ (fun _ => rfl) e i

end Cert.KernelIdeal.Stage

end
-- ==== Proof.RegionEmbed.lean ====
/-
  Region 0 at its entry contents: each grid point multiplies a block of 5000 rows of the node features by the
  embedding weights and adds the bias row; the ten blocks tile the output array, which therefore ends holding, at row
  `p` and column `q`, the sum over `k` of `X p k * Wn k q`, plus `B 0 q`.
-/
import proofs.«424608_j1984274891291_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionEmbed

open Idealize.ShloMosaic Idealize.ShloMosaic.TcCoe Idealize.SL.Sem Idealize.ShloMosaic.ValueIdx
open Cert.KernelIdeal Cert.KernelIdeal.Gen
open Idealize.ShloMosaic.Pipeline (Dat)

/-! ## The block product at an index -/

theorem lhs_blk_0 (i : S5000x256.Idx) (q : dot_S5000x32_S32x256_S5000x256_1_0_0_1_n_n.contr.Idx) :
    (dot_S5000x32_S32x256_S5000x256_1_0_0_1_n_n.lhsIdx i q 0).val = (i 0).val := by
  unfold DotDims.lhsIdx
  rw [dif_neg (show ¬(0 : Fin S5000x32.rank) ∈ dot_S5000x32_S32x256_S5000x256_1_0_0_1_n_n.lhsBatch by decide), dif_pos (show (0 : Fin S5000x32.rank) ∈ dot_S5000x32_S32x256_S5000x256_1_0_0_1_n_n.lhsNonContracting by decide)]
  rfl
theorem lhs_blk_1 (i : S5000x256.Idx) (q : dot_S5000x32_S32x256_S5000x256_1_0_0_1_n_n.contr.Idx) :
    (dot_S5000x32_S32x256_S5000x256_1_0_0_1_n_n.lhsIdx i q 1).val = (q ⟨0, by decide⟩).val :=
  dot_S5000x32_S32x256_S5000x256_1_0_0_1_n_n.lhsIdx_val_of_single rfl i q
theorem rhs_blk_0 (i : S5000x256.Idx) (q : dot_S5000x32_S32x256_S5000x256_1_0_0_1_n_n.contr.Idx) :
    (dot_S5000x32_S32x256_S5000x256_1_0_0_1_n_n.rhsIdx i q 0).val = (q ⟨0, by decide⟩).val :=
  dot_S5000x32_S32x256_S5000x256_1_0_0_1_n_n.rhsIdx_val_of_single rfl i q
theorem rhs_blk_1 (i : S5000x256.Idx) (q : dot_S5000x32_S32x256_S5000x256_1_0_0_1_n_n.contr.Idx) :
    (dot_S5000x32_S32x256_S5000x256_1_0_0_1_n_n.rhsIdx i q 1).val = (i 1).val := by
  unfold DotDims.rhsIdx
  rw [dif_neg (show ¬(1 : Fin S32x256.rank) ∈ dot_S5000x32_S32x256_S5000x256_1_0_0_1_n_n.rhsBatch by decide), dif_pos (show (1 : Fin S32x256.rank) ∈ dot_S5000x32_S32x256_S5000x256_1_0_0_1_n_n.rhsNonContracting by decide)]
  rfl

/-- The block product into the zero splat, at row `p` and column `q` of the block: the sum over the 32 features. -/
theorem matmul_blk_apply (x0 : FVec Ideal S5000x32 .f32) (x1 : FVec Ideal S32x256 .f32) (p : Fin 5000) (q : Fin 256) :
    matmul dot_S5000x32_S32x256_S5000x256_1_0_0_1_n_n none x0 x1 (constant (F := Ideal) S5000x256 .f32 0x00000000#32) (ix2 p q)
      = ∑ k : Fin 32, x0 (ix2 p k) * x1 (ix2 k q) := by
  simp only [matmul]
  rw [Ideal.matmul_constant_zero_apply, ← Equiv.sum_comp (ValueIdx.contrEquiv1 dot_S5000x32_S32x256_S5000x256_1_0_0_1_n_n 32 rfl rfl).symm]
  refine Finset.sum_congr rfl fun k _ => ?_
  have hk := ValueIdx.contrEquiv1_symm_val dot_S5000x32_S32x256_S5000x256_1_0_0_1_n_n 32 rfl rfl k
  have el : dot_S5000x32_S32x256_S5000x256_1_0_0_1_n_n.lhsIdx (ix2 p q) ((ValueIdx.contrEquiv1 dot_S5000x32_S32x256_S5000x256_1_0_0_1_n_n 32 rfl rfl).symm k) = ix2 p k := funext fun a => Fin.ext (by
    match a with
    | ⟨0, _⟩ => exact lhs_blk_0 _ _
    | ⟨1, _⟩ => exact (lhs_blk_1 _ _).trans hk)
  have er : dot_S5000x32_S32x256_S5000x256_1_0_0_1_n_n.rhsIdx (ix2 p q) ((ValueIdx.contrEquiv1 dot_S5000x32_S32x256_S5000x256_1_0_0_1_n_n 32 rfl rfl).symm k) = ix2 k q := funext fun a => Fin.ext (by
    match a with
    | ⟨0, _⟩ => exact (rhs_blk_0 _ _).trans hk
    | ⟨1, _⟩ => exact rhs_blk_1 _ _)
  rw [el, er]

/-- The bias row spread down the block's 5000 rows, at row `p` and column `q`: the row's entry in column `q`. -/
theorem bias_blk_apply (x2 : FVec Ideal S1x256 .f32) (p : Fin 5000) (q : Fin 256) :
    broadcastTo S5000x256 (shapeCast S1x256 x2 shapeCasts_S1x256_S1x256) broadcasts_S1x256_S5000x256 (ix2 p q)
      = x2 (ix2 (0 : Fin 1) q) := by
  rw [shapeCast_self]
  exact broadcastTo_apply x2 broadcasts_S1x256_S5000x256 (ix2 p q) (ix2 (0 : Fin 1) q) (fun a => match a with
    | ⟨0, _⟩ => by show 0 = if (1 : Nat) = 1 then 0 else _; rw [if_pos rfl]
    | ⟨1, _⟩ => by show q.val = if (256 : Nat) = 1 then 0 else q.val; rw [if_neg (by decide)])

/-- The body's stored value at row `p` and column `q` of the block. -/
theorem pay_apply (x0 : Vec Ideal S5000x32 .f32) (x1 : Vec Ideal S32x256 .f32) (x2 : Vec Ideal S1x256 .f32) (p : Fin 5000) (q : Fin 256) :
    k0_pay1 x0 x1 x2 (ix2 p q) = (∑ k : Fin 32, x0 (ix2 p k) * x1 (ix2 k q)) + x2 (ix2 (0 : Fin 1) q) := by
  unfold k0_pay1
  refine (addf_apply _ _ _).trans ?_
  exact congrArg₂ (· + ·) (matmul_blk_apply x0 x1 p q) (bias_blk_apply x2 p q)

/-! ## The array the region leaves -/

/-- Row `p`, column `q` of the embedding: the features of node `p` against column `q` of the weights, plus the bias. -/
def embed (X : Vec Ideal S50000x32 .f32) (Wn : Vec Ideal S32x256 .f32) (B : Vec Ideal S1x256 .f32) : Vec Ideal S50000x256 .f32 :=
  fun i => (∑ k : Fin 32, X (ix2 (i 0) k) * Wn (ix2 k (i 1))) + B (ix2 (0 : Fin 1) (i 1))

variable (V : (c : Dev nD) → (b : Ref sig .tc) → Buf (Elt Ideal) ((c : Thread nD τ).loc b))

/-- The arrays the region reads, as it finds them. -/
abbrev xarr (c : Dev nD) : Vec Ideal S50000x32 .f32 := V c main_arg0
abbrev warr (c : Dev nD) : Vec Ideal S32x256 .f32 := V c main_arg3
abbrev barr (c : Dev nD) : Vec Ideal S1x256 .f32 := V c main_v4
/-- The blocks of them a grid point is handed. -/
abbrev xblk (c : Dev nD) (t : Fin cfg0.N) : Vec Ideal S5000x32 .f32 := iblk0 V c 0 t
abbrev wblk (c : Dev nD) (t : Fin cfg0.N) : Vec Ideal S32x256 .f32 := iblk0 V c 1 t
abbrev bblk (c : Dev nD) (t : Fin cfg0.N) : Vec Ideal S1x256 .f32 := iblk0 V c 2 t

theorem hz : (![0, 0] : Fin 2 → Nat) = fun _ => 0 := funext fun a => by fin_cases a <;> rfl

/-- The index maps over the ten grid points: the features' and the output's blocks move down the rows with the
    point, the weights and the bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem xblk_apply (c : Dev nD) (t : Fin cfg0.N) (p : Fin 5000) (k : Fin 32) (r : Fin 50000)
    (hr : r.val = t.val * 5000 + p.val) :
    xblk V c t (ix2 p k) = xarr V c (ix2 r k) := by
  obtain ⟨e0, e1, -⟩ := idx_facts t
  unfold xblk iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 32 + 1 * k.val = k.val; rw [e1]; omega

theorem wblk_eq (c : Dev nD) (t : Fin cfg0.N) : wblk V c t = warr V c := by
  obtain ⟨-, -, e0, e1, -⟩ := idx_facts t
  funext y
  unfold wblk iblk0
  rw [View.read_apply]
  show V c main_arg3 _ = V c main_arg3 _
  congr 1
  funext a
  apply Fin.ext
  match a with
  | ⟨0, _⟩ => show win0_1.index t (0 : Fin 2) * 32 + 1 * (y 0).val = (y 0).val; rw [e0]; omega
  | ⟨1, _⟩ => show win0_1.index t (1 : Fin 2) * 256 + 1 * (y 1).val = (y 1).val; rw [e1]; omega

theorem bblk_eq (c : Dev nD) (t : Fin cfg0.N) : bblk V c t = barr V c := by
  obtain ⟨-, -, -, -, e0, e1, -⟩ := idx_facts t
  funext y
  unfold bblk iblk0
  rw [View.read_apply]
  show V c main_v4 _ = V c main_v4 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

/-- The body's stored value at an index of the block is the embedding at the matching index of the array. -/
theorem blk_value (c : Dev nD) (t : Fin cfg0.N) (j : S5000x256.Idx) (i : S50000x256.Idx)
    (hi0 : (i 0).val = t.val * 5000 + (j 0).val) (hi1 : (i 1).val = (j 1).val) :
    k0_pay1 (xblk V c t) (wblk V c t) (bblk V c t) j = embed (xarr V c) (warr V c) (barr V c) i := by
  obtain ⟨p, q, rfl⟩ : ∃ (p : Fin 5000) (q : Fin 256), j = ix2 p q := ⟨j 0, j 1, eq_ix2 j⟩
  have hq : i 1 = q := Fin.ext hi1
  rw [pay_apply, wblk_eq, bblk_eq]
  unfold embed
  rw [hq]
  exact congrArg (· + barr V c (ix2 (0 : Fin 1) q))
    (Finset.sum_congr rfl fun k _ => by rw [xblk_apply V c t p k (i 0) hi0])

/-- What grid point `t` writes back is rows `5000 t … 5000 t + 4999` of the embedding. -/
theorem flushed_eq (c : Dev nD) (t : Fin cfg0.N) :
    (dat0 V c).flushed 3 t = ((cfg0.win 3).blk t).view.read (Elt Ideal) (embed (xarr V c) (warr V c) (barr V c)) := by
  show (cfg0.win 3).cut (grid0.coords t) ((dat0 V c).after 3 t) = _
  rw [after0_3]
  unfold out0_3
  rw [View.canon_unit_zero hz]
  simp only [View.ld_unit_zero (S := S5000x32) hz, View.ld_unit_zero (S := S32x256) hz, View.ld_unit_zero (S := S1x256) hz]
  funext j
  obtain ⟨-, -, -, -, -, -, e0, e1⟩ := idx_facts t
  refine blk_value V c t j (((cfg0.win 3).blk t).view.emb j) ?_ ?_
  · show win0_3.index t (0 : Fin 2) * 5000 + 1 * (j 0).val = t.val * 5000 + (j 0).val; rw [e0]; omega
  · show win0_3.index t (1 : Fin 2) * 256 + 1 * (j 1).val = (j 1).val; rw [e1]; omega

/-- An index of the array is in point `t`'s block iff each coordinate is in the block's range on its axis. -/
theorem mem_blk (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v5).slice (win0_3.rect t)).set ↔ _
  rw [View.set_slice_whole, Rect.mem_set_unit]
  exact Iff.rfl

/-- Row `r` lies in the block of point `r / 5000`: the ten blocks tile the array. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 10 := N_0
  let t : Fin cfg0.N := ⟨(i 0).val / 5000, by rw [hN]; omega⟩
  obtain ⟨-, -, -, -, -, -, e0, e1⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 256 ≤ (i 1).val ∧ (i 1).val < win0_3.index t (1 : Fin 2) * 256 + 256; rw [e1]; omega

/-- THE ARRAY the region leaves: the embedding of the arrays it found. -/
theorem final (c : Dev nD) : (dat0 V c).arrAt 3 cfg0.N = embed (xarr V c) (warr V c) (barr V c) :=
  (dat0 V c).arrAt_eq_of_cover 3 (embed (xarr V c) (warr V c) (barr V c)) (fun t _ => flushed_eq V c t) cover

end Cert.KernelIdeal.RegionEmbed

end
-- ==== Proof.StageH0.lean ====
/-
  The node embedding. Region 0 leaves in its output array, row by row, the product of the node features with the
  embedding weights plus the bias row; the reference's first stage is the same array.
-/
import proofs.«424608_j1984274891291_2_alg».proof.Defs
import proofs.«424608_j1984274891291_2_alg».proof.Proof.Gen.KernelIdeal.Frame
import proofs.«424608_j1984274891291_2_alg».proof.Proof.Gen.ReferenceIdeal.Read
import proofs.«424608_j1984274891291_2_alg».proof.Proof.RegionEmbed
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Stage

open Idealize.ShloMosaic Idealize.ShloMosaic.TcCoe Idealize.SL.Sem Idealize.ShloMosaic.ValueIdx
open Cert.KernelIdeal Cert.KernelIdeal.Gen
open Cert.ReferenceIdeal.Read (val_main_v7 val_main_v12 val_main_v66 val_main_v67 val_main_v121 val_main_v128 val_main_v148)

variable (m : (ℓ : Loc nD τ sig) → Buf (Elt Ideal) ℓ) (ρ : Dev nD → PrngReg)

/-- The stretch before region 0 writes neither the node features nor the embedding weights. -/
theorem entry_arg0 (c : Dev nD) : V1 m ρ c main_arg0 = m ((c.tc : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem entry_arg3 (c : Dev nD) : V1 m ρ c main_arg3 = m ((c.tc : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- It writes the bias as a one-row matrix. -/
theorem entry_bias (c : Dev nD) :
    (V1 m ρ c main_v4 : Vec Ideal S1x256 .f32) = shapeCast S1x256 (m ((c.tc : Thread nD τ).loc main_arg4) : Vec Ideal S256 .f32) shapeCasts_S256_S1x256 := by
  show StableHlo.after hostOps0 (W0 m ρ c) (Proc.devRef .tc main_v4) = _
  after_results
  rfl

/-- The bias as a one-row matrix, at column `q`. -/
theorem bias_row_apply (x4 : Vec Ideal S256 .f32) (q : Fin 256) :
    shapeCast S1x256 x4 shapeCasts_S256_S1x256 (ix2 (0 : Fin 1) q) = x4 (ix1 q) :=
  shapeCast_apply x4 shapeCasts_S256_S1x256 (ix2 (0 : Fin 1) q) (ix1 q)
    (by rewrite [Shape.rowMajor_val_two, Shape.rowMajor_val_one]; show q.val = 0 * 256 + q.val; omega)

open Cert.ReferenceIdeal.Read in
/-- The reference's first stage at row `i 0` and column `i 1`: the same sum over the 32 features, plus the bias. -/
theorem ref_apply (x0 : Vec Ideal S50000x32 .f32) (x3 : Vec Ideal S32x256 .f32) (x4 : Vec Ideal S256 .f32) (i : S50000x256.Idx) :
    val_main_v7 (F := Ideal) x0 x3 x4 i = (∑ k : Fin 32, x0 (ix2 (i 0) k) * x3 (ix2 k (i 1))) + x4 (ix1 (i 1)) := by
  have el : ∀ k : Fin 32, lidx_main_v4 i k = ix2 (i 0) k := fun k => funext fun a => Fin.ext (by
    match a with | ⟨0, _⟩ => rfl | ⟨1, _⟩ => rfl)
  have er : ∀ k : Fin 32, ridx_main_v4 i k = ix2 k (i 1) := fun k => funext fun a => Fin.ext (by
    match a with | ⟨0, _⟩ => rfl | ⟨1, _⟩ => rfl)
  have eb : idx_main_v5 (idx_main_v6 i) = ix1 (i 1) := funext fun a => Fin.ext (by
    match a with | ⟨0, _⟩ => rfl)
  rw [val_main_v7_apply, val_main_v4_apply, val_main_v6_apply, val_main_v5_apply, eb]
  simp only [el, er]
  rfl

/-- After region 0 the embedding array is the reference's `x @ Wn + bn`. -/
theorem h0 (c : Dev nD) :
    W2 m ρ c (Proc.devRef .tc main_v5) = val_main_v7 (F := Ideal) (m ((c.tc : Thread nD τ).loc main_arg0)) (m ((c.tc : Thread nD τ).loc main_arg3)) (m ((c.tc : Thread nD τ).loc main_arg4)) := by
  refine (W2_arr m ρ c 3).trans ?_
  rw [RegionEmbed.final (V1 m ρ) c]
  show RegionEmbed.embed (V1 m ρ c main_arg0) (V1 m ρ c main_arg3) (V1 m ρ c main_v4) = _
  rw [entry_arg0, entry_arg3, entry_bias]
  funext i
  rw [ref_apply]
  unfold RegionEmbed.embed
  exact congrArg₂ (· + ·) rfl (bias_row_apply (m ((c.tc : Thread nD τ).loc main_arg4)) (i 1))

end Cert.KernelIdeal.Stage

end
-- ==== Proof.LinearBody.lean ====
/-
  The body shared by the two projection regions, read at an index: a 5000×256 block times a 256×256 matrix, plus a
  1×256 row repeated down the rows.
-/
import proofs.«424608_j1984274891291_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Stage

open Idealize.ShloMosaic Idealize.ShloMosaic.TcCoe Idealize.SL.Sem Idealize.ShloMosaic.ValueIdx
open Cert.KernelIdeal Cert.KernelIdeal.Gen

/-! ## The block product's operand indices -/

theorem lhs_blk_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem lhs_blk_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem rhs_blk_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem rhs_blk_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The block product into a zero accumulator, at row `p` and column `q`: the sum over the 256 contracted coordinates. -/
theorem matmul_blk_apply (x : FVec Ideal S5000x256 .f32) (w : FVec Ideal S256x256 .f32) (p : Fin 5000) (q : Fin 256) :
    matmul dot_S5000x256_S256x256_S5000x256_1_0_0_1_n_n none x w (constant S5000x256 .f32 0x00000000#32) (ix2 p q)
      = ∑ k : Fin 256, x (ix2 p k) * w (ix2 k q) := by
  simp only [matmul]
  rw [Ideal.matmul_constant_zero_apply, ← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx (ix2 p q) ((ValueIdx.contrEquiv1 dot_S5000x256_S256x256_S5000x256_1_0_0_1_n_n 256 rfl rfl).symm k) = ix2 p k := funext fun a => Fin.ext (by
    match a with
    | ⟨0, _⟩ => exact lhs_blk_0 _ _
    | ⟨1, _⟩ => exact (lhs_blk_1 _ _).trans hk)
  have er : dot_S5000x256_S256x256_S5000x256_1_0_0_1_n_n.rhsIdx (ix2 p q) ((ValueIdx.contrEquiv1 dot_S5000x256_S256x256_S5000x256_1_0_0_1_n_n 256 rfl rfl).symm k) = ix2 k q := funext fun a => Fin.ext (by
    match a with
    | ⟨0, _⟩ => exact (rhs_blk_0 _ _).trans hk
    | ⟨1, _⟩ => exact rhs_blk_1 _ _)
  rw [el, er]

/-- The row repeated down the 5000 rows, at row `p` and column `q`: the row's entry at column `q`. -/
theorem bcast_row_apply (z : FVec Ideal S1x256 .f32) (p : Fin 5000) (q : Fin 256) :
    broadcastTo S5000x256 z Facts₀.broadcasts_S1x256_S5000x256 (ix2 p q) = z (ix2 0 q) :=
  broadcastTo_apply z _ (ix2 p q) (ix2 0 q) (fun a => by
    match a with
    | ⟨0, _⟩ => rfl
    | ⟨1, _⟩ => rfl)

/-- The payload of the projection regions at row `p` and column `q`. -/
theorem k1_pay1_apply (x0 : Vec Ideal S5000x256 .f32) (x1 : Vec Ideal S256x256 .f32) (x2 : Vec Ideal S1x256 .f32) (p : Fin 5000) (q : Fin 256) :
    k1_pay1 x0 x1 x2 (ix2 p q) = (∑ k : Fin 256, x0 (ix2 p k) * x1 (ix2 k q)) + x2 (ix2 0 q) := by
  unfold k1_pay1
  rw [shapeCast_self, shapeCast_self]
  show addf _ _ (ix2 p q) = _
  rw [addf_apply, matmul_blk_apply, bcast_row_apply]

/-- Region 3's payload is the same function. -/
theorem k3_pay1_eq : @k3_pay1 Ideal _ = @k1_pay1 Ideal _ := rfl

/-! ## The projection of a whole array -/

/-- An array `H` times a matrix `W` plus a row `Z` repeated down the rows, index by index. -/
def lin (H : S50000x256.Idx → Elt Ideal .f32) (W : S256x256.Idx → Elt Ideal .f32) (Z : S1x256.Idx → Elt Ideal .f32) :
    S50000x256.Idx → Elt Ideal .f32 :=
  fun i => (∑ k : Fin 256, H (ix2 (i 0) k) * W (ix2 k (i 1))) + Z (ix2 0 (i 1))

theorem hz2 : (![0, 0] : Fin 2 → Nat) = fun _ => 0 := funext fun a => by fin_cases a <;> rfl

variable (V : (c : Dev nD) → (b : Ref sig .tc) → Buf (Elt Ideal) ((c : Thread nD τ).loc b))

/-! ## Region 1: from the blocks to the whole array -/

/-- The printed index maps of region 1 over its grid: the input block moves with the output's, the matrix and the row
    stay, the output's block row is below 10 and its block column is 0. -/
theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 9 ∧ win1_3.index t (1 : Fin 2) = 0 :=
  (by decide +kernel : ∀ t : Fin grid1.N, _)

/-- Every one of the ten row blocks is some point's. -/
theorem idx_onto1 : ∀ q0 : Fin 10, ∃ t : Fin cfg1.N, win1_3.index t = ![q0.val, 0] :=
  (by decide +kernel : ∀ q0 : Fin 10, ∃ t : Fin grid1.N, win1_3.index t = ![q0.val, 0])

/-- What point `t` of region 1 writes back is block `t` of the projection of the arrays the region finds. -/
theorem flushed1_eq (c : Dev nD) (t : Fin cfg1.N) :
    (dat1 V c).flushed 3 t = ((cfg1.win 3).blk t).view.read (Elt Ideal) (lin (V c main_v5) (V c main_arg7) (V c main_v34)) := by
  show (cfg1.win 3).cut (grid1.coords t) ((dat1 V c).after 3 t) = _
  rw [after1_3]
  unfold out1_3
  rw [View.canon_unit_zero hz2]
  simp only [View.ld_unit_zero (S := S5000x256) hz2, View.ld_unit_zero (S := S256x256) hz2, View.ld_unit_zero (S := S1x256) hz2]
  obtain ⟨e0, e1, e2, e3, e4, e5, e6, e7⟩ := idx_facts1 t
  funext j
  obtain ⟨p, q, rfl⟩ : ∃ (p : Fin 5000) (q : Fin 256), j = ix2 p q := ⟨j 0, j 1, eq_ix2 j⟩
  show k1_pay1 (iblk1 V c 0 t) (iblk1 V c 1 t) (iblk1 V c 2 t) (ix2 p q)
    = lin (V c main_v5) (V c main_arg7) (V c main_v34) (((cfg1.win 3).blk t).view.emb (ix2 p q))
  rw [k1_pay1_apply]
  generalize hi : ((cfg1.win 3).blk t).view.emb (ix2 p q) = i
  have hi0 : (i 0).val = win1_3.index t (0 : Fin 2) * 5000 + 1 * p.val := by rw [← hi]; rfl
  have hi1 : (i 1).val = win1_3.index t (1 : Fin 2) * 256 + 1 * q.val := by rw [← hi]; rfl
  unfold lin
  refine congrArg₂ (· + ·) (Finset.sum_congr rfl fun k _ => congrArg₂ (· * ·) ?_ ?_) ?_
  · show V c main_v5 (((cfg1.win 0).blk t).view.emb (ix2 p k)) = V c main_v5 (ix2 (i 0) k)
    refine congrArg (V c main_v5) (funext fun a => Fin.ext ?_)
    match a with
    | ⟨0, _⟩ => show win1_0.index t (0 : Fin 2) * 5000 + 1 * p.val = (i 0).val; omega
    | ⟨1, _⟩ => show win1_0.index t (1 : Fin 2) * 256 + 1 * k.val = k.val; omega
  · show V c main_arg7 (((cfg1.win 1).blk t).view.emb (ix2 k q)) = V c main_arg7 (ix2 k (i 1))
    refine congrArg (V c main_arg7) (funext fun a => Fin.ext ?_)
    match a with
    | ⟨0, _⟩ => show win1_1.index t (0 : Fin 2) * 256 + 1 * k.val = k.val; omega
    | ⟨1, _⟩ => show win1_1.index t (1 : Fin 2) * 256 + 1 * q.val = (i 1).val; omega
  · show V c main_v34 (((cfg1.win 2).blk t).view.emb (ix2 (0 : Fin 1) q)) = V c main_v34 (ix2 (0 : Fin 1) (i 1))
    refine congrArg (V c main_v34) (funext fun a => Fin.ext ?_)
    match a with
    | ⟨0, _⟩ => show win1_2.index t (0 : Fin 2) * 1 + 1 * (0 : Fin 1).val = (0 : Fin 1).val; rw [e4]; rfl
    | ⟨1, _⟩ => show win1_2.index t (1 : Fin 2) * 256 + 1 * q.val = (i 1).val; omega

/-- An index of the array is in point `t`'s block iff each coordinate is in the block's range on its axis. -/
theorem mem_blk1 (t : Fin cfg1.N) (i : S50000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v35).slice (win1_3.rect t)).set ↔ _
  rw [View.set_slice_whole, Rect.mem_set_unit]
  exact Iff.rfl

/-- Row `r` of the array is in the block of the point whose block row is `r / 5000`. -/
theorem covered1 (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 256 ≤ (i 1).val ∧ (i 1).val < win1_3.index t (1 : Fin 2) * 256 + 256; omega

/-- After region 1 its output array is the projection of the arrays the region finds. -/
theorem region1_array (c : Dev nD) : (dat1 V c).arrAt 3 cfg1.N = lin (V c main_v5) (V c main_arg7) (V c main_v34) :=
  (dat1 V c).arrAt_eq_of_cover 3 (lin (V c main_v5) (V c main_arg7) (V c main_v34)) (fun t _ => flushed1_eq V c t) (covered1)

/-! ## Region 3: from the blocks to the whole array -/

/-- The printed index maps of region 3 over its grid: the input block moves with the output's, the matrix and the row
    stay, the output's block row is below 10 and its block column is 0. -/
theorem idx_facts3 : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) ≤ 9 ∧ win3_3.index t (1 : Fin 2) = 0 :=
  (by decide +kernel : ∀ t : Fin grid3.N, _)

/-- Every one of the ten row blocks is some point's. -/
theorem idx_onto3 : ∀ q0 : Fin 10, ∃ t : Fin cfg3.N, win3_3.index t = ![q0.val, 0] :=
  (by decide +kernel : ∀ q0 : Fin 10, ∃ t : Fin grid3.N, win3_3.index t = ![q0.val, 0])

/-- What point `t` of region 3 writes back is block `t` of the projection of the arrays the region finds. -/
theorem flushed3_eq (c : Dev nD) (t : Fin cfg3.N) :
    (dat3 V c).flushed 3 t = ((cfg3.win 3).blk t).view.read (Elt Ideal) (lin (V c main_v57) (V c main_arg9) (V c main_v58)) := by
  show (cfg3.win 3).cut (grid3.coords t) ((dat3 V c).after 3 t) = _
  rw [after3_3]
  unfold out3_3
  rw [View.canon_unit_zero hz2]
  simp only [View.ld_unit_zero (S := S5000x256) hz2, View.ld_unit_zero (S := S256x256) hz2, View.ld_unit_zero (S := S1x256) hz2]
  obtain ⟨e0, e1, e2, e3, e4, e5, e6, e7⟩ := idx_facts3 t
  funext j
  obtain ⟨p, q, rfl⟩ : ∃ (p : Fin 5000) (q : Fin 256), j = ix2 p q := ⟨j 0, j 1, eq_ix2 j⟩
  show k3_pay1 (iblk3 V c 0 t) (iblk3 V c 1 t) (iblk3 V c 2 t) (ix2 p q)
    = lin (V c main_v57) (V c main_arg9) (V c main_v58) (((cfg3.win 3).blk t).view.emb (ix2 p q))
  rw [k3_pay1_eq, k1_pay1_apply]
  generalize hi : ((cfg3.win 3).blk t).view.emb (ix2 p q) = i
  have hi0 : (i 0).val = win3_3.index t (0 : Fin 2) * 5000 + 1 * p.val := by rw [← hi]; rfl
  have hi1 : (i 1).val = win3_3.index t (1 : Fin 2) * 256 + 1 * q.val := by rw [← hi]; rfl
  unfold lin
  refine congrArg₂ (· + ·) (Finset.sum_congr rfl fun k _ => congrArg₂ (· * ·) ?_ ?_) ?_
  · show V c main_v57 (((cfg3.win 0).blk t).view.emb (ix2 p k)) = V c main_v57 (ix2 (i 0) k)
    refine congrArg (V c main_v57) (funext fun a => Fin.ext ?_)
    match a with
    | ⟨0, _⟩ => show win3_0.index t (0 : Fin 2) * 5000 + 1 * p.val = (i 0).val; omega
    | ⟨1, _⟩ => show win3_0.index t (1 : Fin 2) * 256 + 1 * k.val = k.val; omega
  · show V c main_arg9 (((cfg3.win 1).blk t).view.emb (ix2 k q)) = V c main_arg9 (ix2 k (i 1))
    refine congrArg (V c main_arg9) (funext fun a => Fin.ext ?_)
    match a with
    | ⟨0, _⟩ => show win3_1.index t (0 : Fin 2) * 256 + 1 * k.val = k.val; omega
    | ⟨1, _⟩ => show win3_1.index t (1 : Fin 2) * 256 + 1 * q.val = (i 1).val; omega
  · show V c main_v58 (((cfg3.win 2).blk t).view.emb (ix2 (0 : Fin 1) q)) = V c main_v58 (ix2 (0 : Fin 1) (i 1))
    refine congrArg (V c main_v58) (funext fun a => Fin.ext ?_)
    match a with
    | ⟨0, _⟩ => show win3_2.index t (0 : Fin 2) * 1 + 1 * (0 : Fin 1).val = (0 : Fin 1).val; rw [e4]; rfl
    | ⟨1, _⟩ => show win3_2.index t (1 : Fin 2) * 256 + 1 * q.val = (i 1).val; omega

/-- An index of the array is in point `t`'s block iff each coordinate is in the block's range on its axis. -/
theorem mem_blk3 (t : Fin cfg3.N) (i : S50000x256.Idx) :
    i ∈ ((cfg3.win 3).blk t).view.set ↔ ∀ a : Fin 2, win3_3.index t a * S5000x256.size a ≤ (i a).val ∧ (i a).val < win3_3.index t a * S5000x256.size a + S5000x256.size a := by
  show i ∈ ((View.whole main_v59).slice (win3_3.rect t)).set ↔ _
  rw [View.set_slice_whole, Rect.mem_set_unit]
  exact Iff.rfl

/-- Row `r` of the array is in the block of the point whose block row is `r / 5000`. -/
theorem covered3 (i : S50000x256.Idx) : ∃ t : Fin cfg3.N, (cfg3.win 3).flush t = true ∧ i ∈ ((cfg3.win 3).blk t).view.set := by
  have hi0 : (i 0).val < 50000 := (i 0).isLt
  have hi1 : (i 1).val < 256 := (i 1).isLt
  obtain ⟨t, ht⟩ := idx_onto3 ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 256 ≤ (i 1).val ∧ (i 1).val < win3_3.index t (1 : Fin 2) * 256 + 256; omega

/-- After region 3 its output array is the projection of the arrays the region finds. -/
theorem region3_array (c : Dev nD) : (dat3 V c).arrAt 3 cfg3.N = lin (V c main_v57) (V c main_arg9) (V c main_v58) :=
  (dat3 V c).arrAt_eq_of_cover 3 (lin (V c main_v57) (V c main_arg9) (V c main_v58)) (fun t _ => flushed3_eq V c t) (covered3)

end Cert.KernelIdeal.Stage

end
-- ==== Proof.StageHW1.lean ====
/-
  The first layer's projection: region 1 multiplies the embedding by the first convolution's weights and adds a zero row.
-/
import proofs.«424608_j1984274891291_2_alg».proof.Defs
import proofs.«424608_j1984274891291_2_alg».proof.Proof.Gen.KernelIdeal.Frame
import proofs.«424608_j1984274891291_2_alg».proof.Proof.Gen.ReferenceIdeal.Read
import proofs.«424608_j1984274891291_2_alg».proof.Proof.LinearBody
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Stage

open Idealize.ShloMosaic Idealize.ShloMosaic.TcCoe Idealize.SL.Sem Idealize.ShloMosaic.ValueIdx
open Cert.KernelIdeal Cert.KernelIdeal.Gen
open Cert.ReferenceIdeal.Read (val_main_v7 val_main_v12 val_main_v66 val_main_v67 val_main_v121 val_main_v128 val_main_v148)

variable (m : (ℓ : Loc nD τ sig) → Buf (Elt Ideal) ℓ) (ρ : Dev nD → PrngReg)

/-! ## The arrays region 1 finds -/

/-- The stretch before region 1 writes no array of region 0: the embedding is as region 0 left it. -/
theorem W3_main_v5 (c : Dev nD) : W3 m ρ c (Proc.devRef .tc main_v5) = W2 m ρ c (Proc.devRef .tc main_v5) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The weights of the first projection are as launched. -/
theorem W3_main_arg7 (c : Dev nD) : W3 m ρ c (Proc.devRef .tc main_arg7) = m ((c.tc : Thread nD τ).loc main_arg7) :=
  calc W3 m ρ c (Proc.devRef .tc main_arg7)
    _ = W2 m ρ c (Proc.devRef .tc main_arg7) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg7) := rfl

/-- The row region 1 adds is the constant zero repeated. -/
theorem W3_main_v34 (c : Dev nD) :
    W3 m ρ c (Proc.devRef .tc main_v34) = broadcastInDim S1x256 ![] Facts₀.bcast_S_S1x256 (constant (F := Ideal) S_ .f32 0x00000000#32) := by
  show StableHlo.after hostOps1 _ (Proc.devRef .tc main_v34) = _
  after_results

theorem W3_main_v34_apply (c : Dev nD) (j : S1x256.Idx) :
    W3 m ρ c (Proc.devRef .tc main_v34) j = (0 : Elt Ideal .f32) := by
  rw [W3_main_v34]
  rw [broadcastInDim_apply _ Facts₀.bcast_S_S1x256 (constant (F := Ideal) S_ .f32 0x00000000#32) j (fun a => a.elim0) (fun a => a.elim0)]
  exact Ideal.ofBits_zero_f32

/-! ## Region 1 against the reference's product -/

/-- After region 1 the projected array is the reference's `h @ Wc1`. -/
theorem hw1 (c : Dev nD)
    (e1 : W2 m ρ c (Proc.devRef .tc main_v5) = val_main_v7 (F := Ideal) (m ((c.tc : Thread nD τ).loc main_arg0)) (m ((c.tc : Thread nD τ).loc main_arg3)) (m ((c.tc : Thread nD τ).loc main_arg4))) :
    W4 m ρ c (Proc.devRef .tc main_v35) = val_main_v12 (F := Ideal) (m ((c.tc : Thread nD τ).loc main_arg0)) (m ((c.tc : Thread nD τ).loc main_arg3)) (m ((c.tc : Thread nD τ).loc main_arg4)) (m ((c.tc : Thread nD τ).loc main_arg7)) := by
  refine (W4_arr m ρ c 3).trans ((region1_array (V3 m ρ) c).trans ?_)
  show lin (W3 m ρ c (Proc.devRef .tc main_v5)) (W3 m ρ c (Proc.devRef .tc main_arg7)) (W3 m ρ c (Proc.devRef .tc main_v34)) = _
  rw [W3_main_v5, W3_main_arg7, e1]
  funext i
  rw [Cert.ReferenceIdeal.Read.val_main_v12_apply]
  unfold lin
  rw [W3_main_v34_apply, add_zero]
  refine Finset.sum_congr rfl fun k _ => congrArg₂ (· * ·) (congrArg _ ?_) (congrArg _ ?_)
  · exact funext fun a => by match a with | ⟨0, _⟩ => rfl | ⟨1, _⟩ => rfl
  · exact funext fun a => by match a with | ⟨0, _⟩ => rfl | ⟨1, _⟩ => rfl

end Cert.KernelIdeal.Stage

end
-- ==== Proof.DegreeChain.lean ====
/-
  The degree normalization, computed once by the kernel's program and shared by both layers: the source and
  destination index rows, the inverse square root of the degree, its square, and the per-edge coefficient are, operation
  for operation, the reference's.
-/
import proofs.«424608_j1984274891291_2_alg».proof.Defs
import proofs.«424608_j1984274891291_2_alg».proof.Proof.Gen.KernelIdeal.Frame
import proofs.«424608_j1984274891291_2_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Stage

open Idealize.ShloMosaic Idealize.ShloMosaic.TcCoe Idealize.SL.Sem Idealize.ShloMosaic.ValueIdx
open Cert.KernelIdeal Cert.KernelIdeal.Gen
open Cert.ReferenceIdeal.Read (val_main_v1 val_main_v3 val_main_v24 val_main_v39 val_main_v58)

variable (m : (ℓ : Loc nD τ sig) → Buf (Elt Ideal) ℓ) (ρ : Dev nD → PrngReg)

/-- The source index row, as the host operations before the first region leave it. -/
theorem src_eq (c : Dev nD) : W1 m ρ c (Proc.devRef .tc main_v1) = val_main_v1 (F := Ideal) (m ((c.tc : Thread nD τ).loc main_arg17)) := by
  show StableHlo.after hostOps0 _ (Proc.devRef .tc main_v1) = _
  after_results
  rfl

/-- The destination index row. -/
theorem dst_eq (c : Dev nD) : W1 m ρ c (Proc.devRef .tc main_v3) = val_main_v3 (F := Ideal) (m ((c.tc : Thread nD τ).loc main_arg17)) := by
  show StableHlo.after hostOps0 _ (Proc.devRef .tc main_v3) = _
  after_results
  rfl

/-- The inverse square root of the degree (in-edges plus the self loop). -/
theorem dis_eq (c : Dev nD) : W3 m ρ c (Proc.devRef .tc main_v17) = val_main_v24 (F := Ideal) (m ((c.tc : Thread nD τ).loc main_arg17)) := by
  have h3 : W2 m ρ c (Proc.devRef .tc main_v3) = val_main_v3 (F := Ideal) (m ((c.tc : Thread nD τ).loc main_arg17)) :=
    (W2_of_ne m ρ c main_v3 (by decide)).trans (dst_eq m ρ c)
  show StableHlo.after hostOps1 _ (Proc.devRef .tc main_v17) = _
  after_results
  rw [h3]
  rfl

/-- Its square, the self-loop coefficient. -/
theorem dis2_eq (c : Dev nD) : W3 m ρ c (Proc.devRef .tc main_v18) = val_main_v58 (F := Ideal) (m ((c.tc : Thread nD τ).loc main_arg17)) := by
  have h3 : W2 m ρ c (Proc.devRef .tc main_v3) = val_main_v3 (F := Ideal) (m ((c.tc : Thread nD τ).loc main_arg17)) :=
    (W2_of_ne m ρ c main_v3 (by decide)).trans (dst_eq m ρ c)
  show StableHlo.after hostOps1 _ (Proc.devRef .tc main_v18) = _
  after_results
  rw [h3]
  rfl

/-- The per-edge coefficient: the product of the two endpoints' inverse square roots. -/
theorem norm_eq (c : Dev nD) : W3 m ρ c (Proc.devRef .tc main_v33) = val_main_v39 (F := Ideal) (m ((c.tc : Thread nD τ).loc main_arg17)) := by
  have h1 : W2 m ρ c (Proc.devRef .tc main_v1) = val_main_v1 (F := Ideal) (m ((c.tc : Thread nD τ).loc main_arg17)) :=
    (W2_of_ne m ρ c main_v1 (by decide)).trans (src_eq m ρ c)
  have h3 : W2 m ρ c (Proc.devRef .tc main_v3) = val_main_v3 (F := Ideal) (m ((c.tc : Thread nD τ).loc main_arg17)) :=
    (W2_of_ne m ρ c main_v3 (by decide)).trans (dst_eq m ρ c)
  show StableHlo.after (hostOps1 (F := Ideal)) (W2 m ρ c) (Proc.devRef .tc main_v33) = _
  after_results_simp
  rw [h1, h3]
  rfl

end Cert.KernelIdeal.Stage

end
-- ==== Proof.ScatterOntoBase.lean ====
/-
  A scatter-add onto a base array is the scatter-add onto zeros plus the base, element by element. At exact arithmetic
  each element of a scatter-add is its base entry plus the sum of the updates that land on it; with a zero base the
  first summand vanishes, and addition of extended reals commutes. No finiteness is needed.
-/
import Idealize.ShloMosaic.PureOps.Ideal.Laws

noncomputable section

namespace Cert.KernelIdeal.Stage

open Idealize.ShloMosaic

/-- `scatterAdd base idx u = scatterAdd zeros idx u + base`, at every element, for any scatter dimension numbers. -/
theorem scatterAdd_onto_base {s si su : Shape} {φ : FTy} {w : Nat} (d : ScatterDims s si su)
    (base zeros : FVec Ideal s φ) (idx : IVec si w) (u : FVec Ideal su φ) (hz : ∀ i, zeros i = 0) (i : s.Idx) :
    Host.scatterAdd (F := Ideal) d base idx u i = Host.scatterAdd (F := Ideal) d zeros idx u i + base i := by
  show base i + _ = (zeros i + _) + base i
  rw [hz i, zero_add, add_comm]

end Cert.KernelIdeal.Stage

end
-- ==== Proof.AddBiasClamp.lean ====
/-
  The finishing region of a layer: over a grid of ten row blocks it adds the bias row to the aggregated array and clamps
  at zero. Whatever the two input arrays hold at the region's entry, the output array ends holding, at every index,
  the aggregated entry plus the bias entry of its column, clamped at zero.
-/
import proofs.«424608_j1984274891291_2_alg».proof.Defs
import proofs.«424608_j1984274891291_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Stage

open Idealize.ShloMosaic Idealize.ShloMosaic.TcCoe Idealize.SL.Sem Idealize.ShloMosaic.ValueIdx
open Idealize.ShloMosaic.Pipeline (Dat)
open Cert.KernelIdeal Cert.KernelIdeal.Gen

/-- Each entry plus the bias entry of its column, clamped at zero. -/
def addBiasClamp (A : S50000x256.Idx → EReal) (B : S1x256.Idx → EReal) : S50000x256.Idx → EReal :=
  fun i => max (A i + B (ix2 (0 : Fin 1) (⟨(i 1).val, (i 1).isLt⟩ : Fin 256))) 0

theorem zero_offsets : (![0, 0] : Fin 2 → Nat) = fun _ => 0 := funext fun a => by fin_cases a <;> rfl

/-- The body's payload at a coordinate pair of the block. -/
theorem pay_apply (x0 : S5000x256.Idx → EReal) (x1 : S1x256.Idx → EReal) (p : Fin 5000) (q : Fin 256) :
    k2_pay1 (F := Ideal) x0 x1 (ix2 p q) = max (x0 (ix2 p q) + x1 (ix2 (0 : Fin 1) q)) 0 := by
  unfold k2_pay1
  show FloatOps.maximumf (FloatOps.addf (shapeCast S5000x256 x0 shapeCasts_S5000x256_S5000x256 (ix2 p q))
      (broadcastTo S5000x256 (shapeCast S1x256 x1 shapeCasts_S1x256_S1x256) broadcasts_S1x256_S5000x256 (ix2 p q)))
      (broadcast S5000x256 (Scalar.ofBits (F := Ideal) .f32 0x00000000#32) (ix2 p q)) = _
  rw [shapeCast_self, shapeCast_self, broadcastTo_1b_ab_apply, broadcast_apply, Ideal.maximumf_def, Ideal.addf_def]
  show max _ (Ideal.ofBits .f32 0x00000000#32) = _
  rw [Ideal.ofBits_zero_f32]

/-- How the printed index maps move over the grid: the aggregated block and the output block are the same row block,
    block `t` at point `t`; the bias block never moves. -/
theorem index_facts : ∀ t : Fin cfg2.N, win2_0.index t (0 : Fin 2) = win2_2.index t (0 : Fin 2)
    ∧ win2_0.index t (1 : Fin 2) = win2_2.index t (1 : Fin 2)
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section Region

variable (V : (c : Dev nD) → (b : Ref sig .tc) → Buf (Elt Ideal) ((c : Thread nD τ).loc b))

/-- The aggregated array and the bias row as the region finds them, by their literal types. -/
abbrev aggIn (c : Dev nD) : S50000x256.Idx → EReal := V c main_v55
abbrev biasIn (c : Dev nD) : S1x256.Idx → EReal := V c main_v56

/-- What point `t` writes back is block `t` of the clamped sum of the entry arrays. -/
theorem flushed_eq (c : Dev nD) (t : Fin cfg2.N) :
    (dat2 V c).flushed 2 t = ((cfg2.win 2).blk t).view.read (Elt Ideal) (addBiasClamp (aggIn V c) (biasIn V c)) := by
  show (cfg2.win 2).cut (grid2.coords t) ((dat2 V c).after 2 t) = _
  rw [after2_2]
  unfold out2_2
  rw [View.canon_unit_zero zero_offsets]
  simp only [View.ld_unit_zero (S := S5000x256) zero_offsets, View.ld_unit_zero (S := S1x256) zero_offsets]
  obtain ⟨e0, e1, e2, e3, e4, e5⟩ := index_facts t
  funext j
  obtain ⟨p, q, rfl⟩ : ∃ (p : Fin 5000) (q : Fin 256), j = ix2 p q := ⟨j 0, j 1, eq_ix2 j⟩
  show k2_pay1 (F := Ideal) (iblk2 V c 0 t) (iblk2 V c 1 t) (ix2 p q)
    = addBiasClamp (aggIn V c) (biasIn V c) (((cfg2.win 2).blk t).view.emb (ix2 p q))
  refine (pay_apply (iblk2 V c 0 t) (iblk2 V c 1 t) p q).trans ?_
  have h0 : ((cfg2.win 0).blk t).view.emb (ix2 p q) = ((cfg2.win 2).blk t).view.emb (ix2 p q) := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 256 + 1 * q.val = win2_2.index t (1 : Fin 2) * 256 + 1 * q.val; omega
  have h1 : ((cfg2.win 1).blk t).view.emb (ix2 (0 : Fin 1) q)
      = ix2 (0 : Fin 1) (⟨(((cfg2.win 2).blk t).view.emb (ix2 p q) 1).val, (((cfg2.win 2).blk t).view.emb (ix2 p q) 1).isLt⟩ : Fin 256) := by
    funext a; apply Fin.ext
    match a with
    | ⟨0, _⟩ => show win2_1.index t (0 : Fin 2) * 1 + 1 * 0 = 0; omega
    | ⟨1, _⟩ => show win2_1.index t (1 : Fin 2) * 256 + 1 * q.val = win2_2.index t (1 : Fin 2) * 256 + 1 * q.val; omega
  show max (aggIn V c (((cfg2.win 0).blk t).view.emb (ix2 p q)) + biasIn V c (((cfg2.win 1).blk t).view.emb (ix2 (0 : Fin 1) q))) 0 = _
  rw [h0, h1]
  rfl

/-- An index of the output array is in point `t`'s block iff each coordinate is in the block's range on its axis. -/
theorem mem_blk (t : Fin cfg2.N) (i : S50000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v57).slice (win2_2.rect t)).set ↔ _
  rw [View.set_slice_whole, Rect.mem_set_unit]
  exact Iff.rfl

/-- Row `r` is in the block of point `r / 5000`, and every point writes its block back. -/
theorem covered (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : cfg2.N = 10 := N_2
  let t : Fin cfg2.N := ⟨(i 0).val / 5000, by rw [hN]; omega⟩
  have ht : t.val = (i 0).val / 5000 := rfl
  obtain ⟨e0, e1, e2, e3, e4, e5⟩ := index_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 256 ≤ (i 1).val ∧ (i 1).val < win2_2.index t (1 : Fin 2) * 256 + 256; omega

/-- The output array when the region ends: the clamped sum of the two entry arrays, at every index. -/
theorem region_out (c : Dev nD) : (dat2 V c).arrAt 2 cfg2.N = addBiasClamp (aggIn V c) (biasIn V c) :=
  (dat2 V c).arrAt_eq_of_cover 2 (addBiasClamp (aggIn V c) (biasIn V c)) (fun t _ => flushed_eq V c t) covered

end Region

end Cert.KernelIdeal.Stage

end
-- ==== Proof.LayerOneOperands.lean ====
/-
  The operands of the first aggregation layer as they stand when its host operations start (after the second region):
  the degree coefficients and the two index rows are still what the earlier host operations left, and the bias argument
  is still the launch memory's, since nothing in between writes them.
-/
import proofs.«424608_j1984274891291_2_alg».proof.Defs
import proofs.«424608_j1984274891291_2_alg».proof.Proof.Gen.KernelIdeal.Frame
import Idealize.ShloMosaic.Lib.StableHlo.Run

set_option maxRecDepth 16384

noncomputable section

namespace Cert.KernelIdeal.Stage

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The squared coefficient is not an array of the second region. -/
theorem kept4_dis2 (c : Dev nD) : W4 m ρ c (Proc.devRef .tc main_v18) = W3 m ρ c (Proc.devRef .tc main_v18) :=
  W4_of_ne m ρ c main_v18 (by decide)

/-- Nor is the per-edge coefficient. -/
theorem kept4_norm (c : Dev nD) : W4 m ρ c (Proc.devRef .tc main_v33) = W3 m ρ c (Proc.devRef .tc main_v33) :=
  W4_of_ne m ρ c main_v33 (by decide)

/-- The source index row: neither region's array, and not written by the degree computation. -/
theorem kept4_src (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v1) := W2_of_ne m ρ c main_v1 (by decide)

/-- The destination index row likewise. -/
theorem kept4_dst (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v3) := W2_of_ne m ρ c main_v3 (by decide)

/-- The first layer's bias argument is the launch memory's. -/
theorem kept4_bias (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl

end Cert.KernelIdeal.Stage

end
-- ==== Proof.StageH1.lean ====
/-
  The first normalized-adjacency layer: the kernel scatter-adds the edge messages onto the self-loop term and region 2
  adds the bias and clamps at zero; the reference scatter-adds onto zeros and adds the self-loop term afterwards.
-/
import proofs.«424608_j1984274891291_2_alg».proof.Defs
import proofs.«424608_j1984274891291_2_alg».proof.Proof.Gen.KernelIdeal.Frame
import proofs.«424608_j1984274891291_2_alg».proof.Proof.Gen.ReferenceIdeal.Read
import proofs.«424608_j1984274891291_2_alg».proof.Proof.DegreeChain
import proofs.«424608_j1984274891291_2_alg».proof.Proof.ScatterOntoBase
import proofs.«424608_j1984274891291_2_alg».proof.Proof.AddBiasClamp
import proofs.«424608_j1984274891291_2_alg».proof.Proof.LayerOneOperands
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Stage

open Idealize.ShloMosaic Idealize.ShloMosaic.TcCoe Idealize.SL.Sem Idealize.ShloMosaic.ValueIdx
open Cert.KernelIdeal Cert.KernelIdeal.Gen
open Cert.ReferenceIdeal.Read (val_main_v1 val_main_v3 val_main_v7 val_main_v12 val_main_v39 val_main_v40 val_main_v50 val_main_v56
  val_main_v57 val_main_v58 val_main_v61 val_main_v62 val_main_v66 val_main_v67 val_main_v121 val_main_v128 val_main_v148)

variable (m : (ℓ : Loc nD τ sig) → Buf (Elt Ideal) ℓ) (ρ : Dev nD → PrngReg)

/-- The reference's scatter base is zero everywhere. -/
theorem zeros_apply (i : S50000x256.Idx) : val_main_v40 (F := Ideal) i = 0 := by
  rw [Cert.ReferenceIdeal.Read.val_main_v40_apply, Cert.ReferenceIdeal.Read.val_main_cst_7_apply, Ideal.ofBits_def, Ideal.ofBits_zero_f32]

/-- The aggregated array at region 2's entry: the reference's edge messages, scattered by the reference's destination
    indices onto the reference's self-loop term. -/
theorem agg_eq (c : Dev nD)
    (e2 : W4 m ρ c (Proc.devRef .tc main_v35) = val_main_v12 (F := Ideal) (m ((c.tc : Thread nD τ).loc main_arg0)) (m ((c.tc : Thread nD τ).loc main_arg3)) (m ((c.tc : Thread nD τ).loc main_arg4)) (m ((c.tc : Thread nD τ).loc main_arg7))) :
    W5 m ρ c (Proc.devRef .tc main_v55)
      = Host.scatterAdd (F := Ideal) (φ := .f32) Cert.ReferenceIdeal.scatter_S50000x256_S800000x1_S800000x256_1_0_0_1
          (val_main_v61 (F := Ideal) (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg17))) (val_main_v56 (F := Ideal) (m ((c.tc : Thread nD τ).loc main_arg17)))
          (val_main_v50 (F := Ideal) (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg17))) := by
  have h18 : W4 m ρ c (Proc.devRef .tc main_v18) = val_main_v58 (F := Ideal) (m ((c.tc : Thread nD τ).loc main_arg17)) := (kept4_dis2 m ρ c).trans (dis2_eq m ρ c)
  have h33 : W4 m ρ c (Proc.devRef .tc main_v33) = val_main_v39 (F := Ideal) (m ((c.tc : Thread nD τ).loc main_arg17)) := (kept4_norm m ρ c).trans (norm_eq m ρ c)
  have h1 : W4 m ρ c (Proc.devRef .tc main_v1) = val_main_v1 (F := Ideal) (m ((c.tc : Thread nD τ).loc main_arg17)) := (kept4_src m ρ c).trans (src_eq m ρ c)
  have h3 : W4 m ρ c (Proc.devRef .tc main_v3) = val_main_v3 (F := Ideal) (m ((c.tc : Thread nD τ).loc main_arg17)) := (kept4_dst m ρ c).trans (dst_eq m ρ c)
  show StableHlo.after (hostOps2 (F := Ideal)) (W4 m ρ c) (Proc.devRef .tc main_v55) = _
  after_results_simp
  rw [h18, h33, h1, h3, e2]
  rfl

/-- The bias row at region 2's entry: the bias argument as one row. -/
theorem bias_eq (c : Dev nD) :
    W5 m ρ c (Proc.devRef .tc main_v56) = shapeCast S1x256 (m ((c.tc : Thread nD τ).loc main_arg8)) shapeCasts_S256_S1x256 := by
  show StableHlo.after (hostOps2 (F := Ideal)) (W4 m ρ c) (Proc.devRef .tc main_v56) = _
  after_results
  rw [kept4_bias]
  try rfl

/-- After region 2 the first layer's output is the reference's. -/
theorem h1 (c : Dev nD)
    (e2 : W4 m ρ c (Proc.devRef .tc main_v35) = val_main_v12 (F := Ideal) (m ((c.tc : Thread nD τ).loc main_arg0)) (m ((c.tc : Thread nD τ).loc main_arg3)) (m ((c.tc : Thread nD τ).loc main_arg4)) (m ((c.tc : Thread nD τ).loc main_arg7))) :
    W6 m ρ c (Proc.devRef .tc main_v57) = val_main_v66 (F := Ideal) (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg17)) := by
  have hA : aggIn (V5 m ρ) c
      = Host.scatterAdd (F := Ideal) (φ := .f32) Cert.ReferenceIdeal.scatter_S50000x256_S800000x1_S800000x256_1_0_0_1
          (val_main_v61 (F := Ideal) (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg17))) (val_main_v56 (F := Ideal) (m ((c.tc : Thread nD τ).loc main_arg17)))
          (val_main_v50 (F := Ideal) (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg17))) := agg_eq m ρ c e2
  have hB : biasIn (V5 m ρ) c = shapeCast S1x256 (m ((c.tc : Thread nD τ).loc main_arg8)) shapeCasts_S256_S1x256 := bias_eq m ρ c
  have key : ∀ i : S50000x256.Idx, aggIn (V5 m ρ) c i = val_main_v62 (F := Ideal) (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg17)) i := fun i => by
    rw [hA, Cert.ReferenceIdeal.Read.val_main_v62_apply, Ideal.addf_def]
    exact scatterAdd_onto_base _ _ _ _ _ zeros_apply i
  refine (W6_arr m ρ c 2).trans ?_
  rw [region_out (V5 m ρ) c]
  funext i
  show max (aggIn (V5 m ρ) c i + biasIn (V5 m ρ) c (ix2 (0 : Fin 1) (⟨(i 1).val, (i 1).isLt⟩ : Fin 256))) 0 = _
  rw [key i, hB]
  have hidx : ix1 (⟨(i 1).val, (i 1).isLt⟩ : Fin 256)
      = Cert.ReferenceIdeal.Read.idx_main_v63 (Cert.ReferenceIdeal.Read.idx_main_v64 i) := by
    funext a; match a with | ⟨0, _⟩ => rfl
  rw [Cert.ReferenceIdeal.Read.val_main_v66_apply, Cert.ReferenceIdeal.Read.val_main_v65_apply,
    Cert.ReferenceIdeal.Read.val_main_v64_apply, Cert.ReferenceIdeal.Read.val_main_v63_apply,
    Cert.ReferenceIdeal.Read.val_main_call0_v0_apply, Cert.ReferenceIdeal.Read.val_main_call0_cst_apply,
    Ideal.maximumf_def, Ideal.addf_def, Ideal.ofBits_def, Ideal.ofBits_zero_f32, shapeCast_a_1a_apply, hidx]

end Cert.KernelIdeal.Stage

end
-- ==== Proof.StageHW2.lean ====
/-
  The second layer's projection: region 3 multiplies the first layer's output by the second convolution's weights.
-/
import proofs.«424608_j1984274891291_2_alg».proof.Defs
import proofs.«424608_j1984274891291_2_alg».proof.Proof.Gen.KernelIdeal.Frame
import proofs.«424608_j1984274891291_2_alg».proof.Proof.Gen.ReferenceIdeal.Read
import proofs.«424608_j1984274891291_2_alg».proof.Proof.LinearBody
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Stage

open Idealize.ShloMosaic Idealize.ShloMosaic.TcCoe Idealize.SL.Sem Idealize.ShloMosaic.ValueIdx
open Cert.KernelIdeal Cert.KernelIdeal.Gen
open Cert.ReferenceIdeal.Read (val_main_v7 val_main_v12 val_main_v66 val_main_v67 val_main_v121 val_main_v128 val_main_v148)

variable (m : (ℓ : Loc nD τ sig) → Buf (Elt Ideal) ℓ) (ρ : Dev nD → PrngReg)

/-! ## The arrays region 3 finds -/

/-- The stretch before region 3 writes no array of region 2: the first layer's output is as region 2 left it. -/
theorem W7_main_v57 (c : Dev nD) : W7 m ρ c (Proc.devRef .tc main_v57) = W6 m ρ c (Proc.devRef .tc main_v57) :=
  StableHlo.after_of_forall_not_mem _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The weights of the second projection are as launched. -/
theorem W7_main_arg9 (c : Dev nD) : W7 m ρ c (Proc.devRef .tc main_arg9) = m ((c.tc : Thread nD τ).loc main_arg9) :=
  calc W7 m ρ c (Proc.devRef .tc main_arg9)
    _ = W6 m ρ c (Proc.devRef .tc main_arg9) := StableHlo.after_of_forall_not_mem _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg9) := rfl

/-- The row region 3 adds is the constant zero repeated. -/
theorem W7_main_v58 (c : Dev nD) :
    W7 m ρ c (Proc.devRef .tc main_v58) = broadcastInDim S1x256 ![] Facts₀.bcast_S_S1x256 (constant (F := Ideal) S_ .f32 0x00000000#32) := by
  show StableHlo.after hostOps3 _ (Proc.devRef .tc main_v58) = _
  after_results

theorem W7_main_v58_apply (c : Dev nD) (j : S1x256.Idx) :
    W7 m ρ c (Proc.devRef .tc main_v58) j = (0 : Elt Ideal .f32) := by
  rw [W7_main_v58]
  rw [broadcastInDim_apply _ Facts₀.bcast_S_S1x256 (constant (F := Ideal) S_ .f32 0x00000000#32) j (fun a => a.elim0) (fun a => a.elim0)]
  exact Ideal.ofBits_zero_f32

/-! ## Region 3 against the reference's product -/

/-- After region 3 the projected array is the reference's `h @ Wc2`. -/
theorem hw2 (c : Dev nD)
    (e3 : W6 m ρ c (Proc.devRef .tc main_v57) = val_main_v66 (F := Ideal) (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg17))) :
    W8 m ρ c (Proc.devRef .tc main_v59) = val_main_v67 (F := Ideal) (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg17)) := by
  refine (W8_arr m ρ c 3).trans ((region3_array (V7 m ρ) c).trans ?_)
  show lin (W7 m ρ c (Proc.devRef .tc main_v57)) (W7 m ρ c (Proc.devRef .tc main_arg9)) (W7 m ρ c (Proc.devRef .tc main_v58)) = _
  rw [W7_main_v57, W7_main_arg9, e3]
  funext i
  rw [Cert.ReferenceIdeal.Read.val_main_v67_apply]
  unfold lin
  rw [W7_main_v58_apply, add_zero]
  refine Finset.sum_congr rfl fun k _ => congrArg₂ (· * ·) (congrArg _ ?_) (congrArg _ ?_)
  · exact funext fun a => by match a with | ⟨0, _⟩ => rfl | ⟨1, _⟩ => rfl
  · exact funext fun a => by match a with | ⟨0, _⟩ => rfl | ⟨1, _⟩ => rfl

end Cert.KernelIdeal.Stage

end
-- ==== Proof.BiasRelu.lean ====
/-
  Region 4 adds a bias row to every row of the aggregated array and clamps at zero from below:
  its result array at (p, q) is max (Agg (p, q) + B (0, q)) 0, Agg and B its two input arrays as
  the region finds them.
-/
import proofs.«424608_j1984274891291_2_alg».proof.Defs
import proofs.«424608_j1984274891291_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Stage.LayerTwo

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem zero_off2 : (![0, 0] : Fin 2 → Nat) = fun _ => 0 := funext fun a => by fin_cases a <;> rfl

/-- The whole arrays and the blocks, by their literal types. -/
abbrev Arr50000x256 := FVec Ideal S50000x256 .f32
abbrev Arr1x256 := FVec Ideal S1x256 .f32
abbrev Blk5000x256 := FVec Ideal S5000x256 .f32

/-- Bias added along the rows, then the maximum with zero. -/
abbrev biasRelu (a : Arr50000x256) (b : Arr1x256) : Arr50000x256 :=
  fun i => max (a i + b (ix2 (0 : Fin 1) (i 1))) 0

/-- The two input arrays as the region finds them: the aggregate and the bias row. -/
abbrev agg (c : Dev nD) : Arr50000x256 := V c main_v79
abbrev bias (c : Dev nD) : Arr1x256 := V c main_v80

/-- The payload at an index of the block, by coordinates. -/
theorem pay_apply (x0 : Blk5000x256) (x1 : Arr1x256) (p : Fin 5000) (q : Fin 256) :
    k4_pay1 (F := Ideal) x0 x1 (ix2 p q) = max (x0 (ix2 p q) + x1 (ix2 (0 : Fin 1) q)) 0 := by
  unfold k4_pay1
  simp only [shapeCast_self]
  rw [maximumf_apply, addf_apply, broadcastTo_1b_ab_apply, broadcast_apply]
  rw [show (Scalar.ofBits .f32 0x00000000#32 : Ideal .f32) = 0 from Ideal.ofBits_zero_f32]

/-- The payload at any index of the block. -/
theorem pay_at (x0 : Blk5000x256) (x1 : Arr1x256) (j : S5000x256.Idx) :
    k4_pay1 (F := Ideal) x0 x1 j = max (x0 j + x1 (ix2 (0 : Fin 1) (j 1))) 0 := by
  obtain ⟨p, q, rfl⟩ : ∃ (p : Fin 5000) (q : Fin 256), j = ix2 p q := ⟨j 0, j 1, eq_ix2 j⟩
  exact pay_apply x0 x1 p q

/-- The windows' block indices over the grid: the aggregate's and the result's blocks are the point's row block,
    the bias row's block is the whole row. -/
theorem idx_facts : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What point t writes back is block t of the bias-and-clamp of the two input arrays. -/
theorem flushed_eq (c : Dev nD) (t : Fin cfg4.N) :
    (dat4 V c).flushed 2 t = ((cfg4.win 2).blk t).view.read (Elt Ideal) (biasRelu (agg V c) (bias V c)) := by
  show (cfg4.win 2).cut (grid4.coords t) ((dat4 V c).after 2 t) = _
  rw [after4_2]
  unfold out4_2
  rw [View.canon_unit_zero zero_off2]
  simp only [View.ld_unit_zero (S := S5000x256) zero_off2, View.ld_unit_zero (S := S1x256) zero_off2]
  obtain ⟨e0, e1, e2, e3, e4, e5⟩ := idx_facts t
  funext j
  show k4_pay1 (F := Ideal) (iblk4 V c 0 t) (iblk4 V c 1 t) j = _
  rw [pay_at]
  show max (agg V c (((cfg4.win 0).blk t).view.emb j) + bias V c (((cfg4.win 1).blk t).view.emb (ix2 (0 : Fin 1) (j 1)))) 0
    = max (agg V c (((cfg4.win 2).blk t).view.emb j) + bias V c (ix2 (0 : Fin 1) ((((cfg4.win 2).blk t).view.emb j) 1))) 0
  have h0 : ((cfg4.win 0).blk t).view.emb j = ((cfg4.win 2).blk t).view.emb j := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 256 + 1 * (j 1).val = win4_2.index t (1 : Fin 2) * 256 + 1 * (j 1).val; omega
  have h1 : ((cfg4.win 1).blk t).view.emb (ix2 (0 : Fin 1) (j 1)) = ix2 (0 : Fin 1) ((((cfg4.win 2).blk t).view.emb j) 1) := by
    funext a; apply Fin.ext
    match a with
    | ⟨0, _⟩ => show win4_1.index t (0 : Fin 2) * 1 + 1 * 0 = 0; omega
    | ⟨1, _⟩ => show win4_1.index t (1 : Fin 2) * 256 + 1 * (j 1).val = win4_2.index t (1 : Fin 2) * 256 + 1 * (j 1).val; omega
  rw [h0, h1]
  rfl

/-- An index of the array is in point t's block iff each coordinate is in the block's range on its axis. -/
theorem mem_blk (t : Fin cfg4.N) (i : S50000x256.Idx) :
    i ∈ ((cfg4.win 2).blk t).view.set ↔ ∀ a : Fin 2, win4_2.index t a * S5000x256.size a ≤ (i a).val ∧ (i a).val < win4_2.index t a * S5000x256.size a + S5000x256.size a := by
  show i ∈ ((View.whole main_v81).slice (win4_2.rect t)).set ↔ _
  rw [View.set_slice_whole, Rect.mem_set_unit]
  exact Iff.rfl

/-- Row r lies in the block of point r / 5000. -/
theorem cover (i : S50000x256.Idx) :
    ∃ t : Fin cfg4.N, (cfg4.win 2).flush t = true ∧ i ∈ ((cfg4.win 2).blk t).view.set := by
  have hi0 : (i 0).val < 50000 := (i 0).isLt
  have hi1 : (i 1).val < 256 := (i 1).isLt
  have hN : cfg4.N = 10 := N_4
  let t : Fin cfg4.N := ⟨(i 0).val / 5000, by rw [hN]; omega⟩
  obtain ⟨e0, e1, e2, e3, e4, e5⟩ := idx_facts t
  have ht : t.val = (i 0).val / 5000 := rfl
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 256 ≤ (i 1).val ∧ (i 1).val < win4_2.index t (1 : Fin 2) * 256 + 256; omega

/-- The result array after region 4: the bias-and-clamp of its two input arrays as the region finds them. -/
theorem finish_arr (c : Dev nD) :
    (dat4 V c).arrAt 2 cfg4.N = biasRelu (agg V c) (bias V c) :=
  (dat4 V c).arrAt_eq_of_cover 2 (biasRelu (agg V c) (bias V c)) (fun t _ => flushed_eq V c t) cover

end Cert.KernelIdeal.Stage.LayerTwo

end
-- ==== Proof.KeptOperands.lean ====
/-
  Buffers that the second layer's host operations read and that nothing between their writing and region 3's exit
  writes again: each holds at region 3's exit what it held when written.
-/
import proofs.«424608_j1984274891291_2_alg».proof.Defs
import proofs.«424608_j1984274891291_2_alg».proof.Proof.Gen.KernelIdeal.Frame
import Idealize.ShloMosaic.Lib.StableHlo.Run

set_option maxRecDepth 16384

noncomputable section

namespace Cert.KernelIdeal.Stage

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The squared inverse square root of the degree is, at region 3's exit, as the second stretch wrote it. -/
theorem kept8_dis2 (c : Dev nD) : W8 m ρ c (Proc.devRef .tc main_v18) = W3 m ρ c (Proc.devRef .tc main_v18) :=
  calc W8 m ρ c (Proc.devRef .tc main_v18)
    _ = W7 m ρ c (Proc.devRef .tc main_v18) := W8_of_ne m ρ c main_v18 (by decide)
    _ = W6 m ρ c (Proc.devRef .tc main_v18) := StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v18) := W6_of_ne m ρ c main_v18 (by decide)
    _ = W4 m ρ c (Proc.devRef .tc main_v18) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v18) := W4_of_ne m ρ c main_v18 (by decide)

/-- The per-edge coefficient likewise. -/
theorem kept8_norm (c : Dev nD) : W8 m ρ c (Proc.devRef .tc main_v33) = W3 m ρ c (Proc.devRef .tc main_v33) :=
  calc W8 m ρ c (Proc.devRef .tc main_v33)
    _ = W7 m ρ c (Proc.devRef .tc main_v33) := W8_of_ne m ρ c main_v33 (by decide)
    _ = W6 m ρ c (Proc.devRef .tc main_v33) := StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v33) := W6_of_ne m ρ c main_v33 (by decide)
    _ = W4 m ρ c (Proc.devRef .tc main_v33) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v33) := W4_of_ne m ρ c main_v33 (by decide)

/-- The source index row is as the first stretch wrote it. -/
theorem kept8_src (c : Dev nD) : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := W6_of_ne m ρ c main_v1 (by decide)
    _ = W4 m ρ c (Proc.devRef .tc main_v1) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

/-- The destination index row likewise. -/
theorem kept8_dst (c : Dev nD) : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- The second layer's bias is as launched. -/
theorem kept8_bias (c : Dev nD) : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

end Cert.KernelIdeal.Stage

end
-- ==== Proof.StageH2.lean ====
/-
  The second normalized-adjacency layer, as the first, through region 4.
-/
import proofs.«424608_j1984274891291_2_alg».proof.Defs
import proofs.«424608_j1984274891291_2_alg».proof.Proof.Gen.KernelIdeal.Frame
import proofs.«424608_j1984274891291_2_alg».proof.Proof.Gen.ReferenceIdeal.Read
import proofs.«424608_j1984274891291_2_alg».proof.Proof.DegreeChain
import proofs.«424608_j1984274891291_2_alg».proof.Proof.BiasRelu
import proofs.«424608_j1984274891291_2_alg».proof.Proof.KeptOperands
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Stage.LayerTwo

open Idealize.ShloMosaic Idealize.ShloMosaic.TcCoe Idealize.SL.Sem Idealize.ShloMosaic.ValueIdx
open Cert.KernelIdeal Cert.KernelIdeal.Gen
open Cert.ReferenceIdeal.Read (val_main_v1 val_main_v3 val_main_v7 val_main_v12 val_main_v24 val_main_v39 val_main_v58 val_main_v66 val_main_v67
  val_main_v95 val_main_v95_apply val_main_cst_21_apply val_main_v105 val_main_v111 val_main_v112 val_main_v116 val_main_v117_apply
  val_main_v118_apply val_main_v119_apply idx_main_v118 idx_main_v119 val_main_v120_apply val_main_call1_v0_apply val_main_call1_cst_apply
  val_main_v121 val_main_v121_apply val_main_v128 val_main_v148)

variable (m : (ℓ : Loc nD τ sig) → Buf (Elt Ideal) ℓ) (ρ : Dev nD → PrngReg)

/-- A scatter-add onto a base is the scatter-add onto zeros plus the base: the sum of the colliding updates does not
    depend on what they are added to. -/
theorem scatterAdd_base {φ : FTy} {s si su : Shape} (d : ScatterDims s si su) {w : Nat} (base z : FVec Ideal s φ)
    (idx : IVec si w) (u : FVec Ideal su φ) (hz : ∀ i, z i = 0) (i : s.Idx) :
    Host.scatterAdd d base idx u i = Host.scatterAdd d z idx u i + base i := by
  show base i + _ = (z i + _) + base i
  rw [hz, zero_add, add_comm]

/-- The reference's zero array is zero. -/
theorem zeros_apply (i : S50000x256.Idx) : val_main_v95 (F := Ideal) i = 0 := by
  rw [val_main_v95_apply, val_main_cst_21_apply]
  exact Ideal.ofBits_zero_f32

/-- The aggregate before the bias: the host operations before region 4 scatter the weighted neighbour rows onto the
    self-loop term. -/
theorem agg_eq (c : Dev nD)
    (e4 : W8 m ρ c (Proc.devRef .tc main_v59) = val_main_v67 (F := Ideal) (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg17))) :
    W9 m ρ c (Proc.devRef .tc main_v79) = (Host.scatterAdd (F := Ideal) (φ := .f32) Cert.ReferenceIdeal.scatter_S50000x256_S800000x1_S800000x256_1_0_0_1
      (val_main_v116 (F := Ideal) (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg17))) (val_main_v111 (F := Ideal) (m ((c.tc : Thread nD τ).loc main_arg17))) (val_main_v105 (F := Ideal) (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg17)))
        : (⟨S50000x256, .f32⟩ : BufTy).Contents (Elt Ideal)) := by
  have h18 : W8 m ρ c (Proc.devRef .tc main_v18) = val_main_v58 (F := Ideal) (m ((c.tc : Thread nD τ).loc main_arg17)) := (kept8_dis2 m ρ c).trans (dis2_eq m ρ c)
  have h33 : W8 m ρ c (Proc.devRef .tc main_v33) = val_main_v39 (F := Ideal) (m ((c.tc : Thread nD τ).loc main_arg17)) := (kept8_norm m ρ c).trans (norm_eq m ρ c)
  have h1 : W8 m ρ c (Proc.devRef .tc main_v1) = val_main_v1 (F := Ideal) (m ((c.tc : Thread nD τ).loc main_arg17)) := (kept8_src m ρ c).trans (src_eq m ρ c)
  have h3 : W8 m ρ c (Proc.devRef .tc main_v3) = val_main_v3 (F := Ideal) (m ((c.tc : Thread nD τ).loc main_arg17)) := (kept8_dst m ρ c).trans (dst_eq m ρ c)
  show StableHlo.after (hostOps4 (F := Ideal)) (W8 m ρ c) (Proc.devRef .tc main_v79) = _
  after_results_simp
  rw [h18, h33, h1, h3, e4]
  rfl

/-- The bias row region 4 reads: the bias vector as one row. -/
theorem bias_eq (c : Dev nD) :
    W9 m ρ c (Proc.devRef .tc main_v80) = (shapeCast S1x256 (m ((c.tc : Thread nD τ).loc main_arg10)) shapeCasts_S256_S1x256 : (⟨S1x256, .f32⟩ : BufTy).Contents (Elt Ideal)) := by
  show StableHlo.after (hostOps4 (F := Ideal)) (W8 m ρ c) (Proc.devRef .tc main_v80) = _
  after_results_simp
  rw [kept8_bias m ρ c]
  rfl

/-- After region 4 the second layer's output is the reference's. -/
theorem h2 (c : Dev nD)
    (e4 : W8 m ρ c (Proc.devRef .tc main_v59) = val_main_v67 (F := Ideal) (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg17))) :
    W10 m ρ c (Proc.devRef .tc main_v81) = val_main_v121 (F := Ideal) (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg17)) := by
  have hW : W10 m ρ c (Proc.devRef .tc main_v81) = biasRelu (agg (V9 m ρ) c) (bias (V9 m ρ) c) :=
    (W10_arr m ρ c 2).trans (finish_arr (V9 m ρ) c)
  have hA : agg (V9 m ρ) c = _ := agg_eq m ρ c e4
  have hB : bias (V9 m ρ) c = _ := bias_eq m ρ c
  rw [hW, hA, hB]
  funext i
  obtain ⟨p, q, rfl⟩ : ∃ (p : Fin 50000) (q : Fin 256), i = ix2 p q := ⟨i 0, i 1, eq_ix2 i⟩
  rw [val_main_v121_apply, val_main_v120_apply, val_main_v117_apply, val_main_v119_apply, val_main_v118_apply,
    val_main_call1_v0_apply, val_main_call1_cst_apply]
  unfold val_main_v112
  generalize val_main_v116 (F := Ideal) (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg17)) = B
  generalize val_main_v111 (F := Ideal) (m ((c.tc : Thread nD τ).loc main_arg17)) = I
  generalize val_main_v105 (F := Ideal) (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg17)) = U
  show max (Host.scatterAdd (F := Ideal) (φ := .f32) Cert.ReferenceIdeal.scatter_S50000x256_S800000x1_S800000x256_1_0_0_1 B I U (ix2 p q)
      + shapeCast S1x256 (m ((c.tc : Thread nD τ).loc main_arg10)) shapeCasts_S256_S1x256 (ix2 (0 : Fin 1) q)) 0 = _
  rw [scatterAdd_base _ B (val_main_v95 (F := Ideal)) I U zeros_apply (ix2 p q), shapeCast_a_1a_apply]
  have hi : (ix1 q : S256.Idx) = idx_main_v118 (idx_main_v119 (ix2 p q)) := funext fun a => match a with | ⟨0, _⟩ => rfl
  rw [← hi]
  show _ = max _ (Ideal.ofBits .f32 0x00000000#32)
  rw [Ideal.ofBits_zero_f32]
  rfl

end Cert.KernelIdeal.Stage.LayerTwo

end
-- ==== Proof.StageZ.lean ====
/-
  The row selection. The kernel's take replaces a row whose index is out of range by a fill value; when every index is
  in range no row is replaced and the selection is the reference's gather.
-/
import proofs.«424608_j1984274891291_2_alg».proof.Defs
import proofs.«424608_j1984274891291_2_alg».proof.Proof.Gen.KernelIdeal.Frame
import proofs.«424608_j1984274891291_2_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run
import Idealize.ShloMosaic.Lib.Affine

set_option maxRecDepth 16384

noncomputable section

namespace Cert.KernelIdeal.Stage

open Idealize.ShloMosaic Idealize.ShloMosaic.TcCoe Idealize.SL.Sem Idealize.ShloMosaic.ValueIdx
open Cert.KernelIdeal Cert.KernelIdeal.Gen
open Cert.ReferenceIdeal.Read (val_main_v7 val_main_v12 val_main_v66 val_main_v67 val_main_v121 val_main_v128 val_main_v148)

/-! ## A conjunction of ones is one -/

/-- A left fold by `and` from 1 over bits that are all 1 is 1. -/
theorem foldl_andi_of_forall_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_of_forall_one f hf l

/-- A reduction by `and` from 1 of an array of ones is 1 at every result index. -/
theorem reduce_andi_of_forall_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_of_forall_one x hx _

/-! ## The take's index and mask -/

/-- The selection index as the take wraps it: a negative index is moved up by the number of rows. -/
def wrapSel (a : IVec S4096 32) : IVec S4096 32 :=
  select (cmpi .slt a (broadcastInDim S4096 ![] bcast_S_S4096 (constantI S_ 32 0#32)))
    (addi a (broadcastInDim S4096 ![] bcast_S_S4096 (constantI S_ 32 50000#32))) a

/-- The wrapped index as a column of start indices. -/
def wrapIdx (a : IVec S4096 32) : IVec S4096x1 32 :=
  broadcastInDim S4096x1 ![0] bcast_S4096_S4096x1_0 (wrapSel a)

/-- Per start index: is it a row number, 0 ≤ index ≤ 49999. -/
def inRangeBits (v : IVec S4096x1 32) : IVec S4096x1 1 :=
  andi (cmpi .sge v (broadcastInDim S4096x1 ![] bcast_S_S4096x1 (constantI S_ 32 0#32)))
    (cmpi .sle v (broadcastInDim S4096x1 ![0, 1] bcast_S1x1_S4096x1_0_1 (broadcastInDim S1x1 ![1] bcast_S1_S1x1_1 (constantI S1 32 49999#32))))

/-- The take's mask: per result element, whether its row's start index is a row number. -/
def inRangeMask (v : IVec S4096x1 32) : IVec S4096x256 1 :=
  broadcastInDim S4096x256 ![0] bcast_S4096_S4096x256_0
    (Host.reduce IntOp.andi (inRangeBits v) (constantI S_ 1 1#1) reducesTo_S4096x1_S4096_d1 h_S_)

/-- A non-negative index is not wrapped. -/
theorem wrapSel_apply (a : IVec S4096 32) (h : ∀ i, 0 ≤ (a i).toInt ∧ (a i).toInt < 50000) (k : S4096.Idx) :
    wrapSel a k = a k := by
  have h0 : (0#32 : BitVec 32).toInt = 0 := by decide
  have hn : ¬ IntOp.cmpi .slt (a k) (0#32) = 1#1 := by
    rw [IntOp.cmpi_slt, h0]; have := (h k).1; omega
  show Scalar.select (IntOp.cmpi .slt (a k) (0#32)) _ (a k) = a k
  unfold Scalar.select
  exact if_neg hn

/-- With every index a row number, every wrapped start index is a row number. -/
theorem wrapIdx_in_range (a : IVec S4096 32) (h : ∀ i, 0 ≤ (a i).toInt ∧ (a i).toInt < 50000) (i : S4096x1.Idx) :
    0 ≤ (wrapIdx a i).toInt ∧ (wrapIdx a i).toInt < 50000 := by
  obtain ⟨k, hk⟩ : ∃ k, wrapIdx a i = wrapSel a k := ⟨_, rfl⟩
  rw [hk, wrapSel_apply a h k]; exact h k

/-- With every start index a row number the mask is all ones. -/
theorem inRangeMask_eq_one (v : IVec S4096x1 32) (h : ∀ i, 0 ≤ (v i).toInt ∧ (v i).toInt < 50000) (j : S4096x256.Idx) :
    inRangeMask v j = 1#1 := by
  obtain ⟨k, hk⟩ : ∃ k, inRangeMask v j
      = Host.reduce IntOp.andi (inRangeBits v) (constantI S_ 1 1#1) reducesTo_S4096x1_S4096_d1 h_S_ k := ⟨_, rfl⟩
  rw [hk]
  refine reduce_andi_of_forall_one _ _ _ _ rfl (fun i => ?_) k
  have h0 : (0#32 : BitVec 32).toInt = 0 := by decide
  have hM : (49999#32 : BitVec 32).toInt = 49999 := by decide
  refine IntOp.andi_eq_one.2 ⟨?_, ?_⟩
  · show IntOp.cmpi .sge (v i) (0#32) = 1#1
    rw [IntOp.cmpi_sge, h0]; exact (h i).1
  · show IntOp.cmpi .sle (v i) (49999#32) = 1#1
    rw [IntOp.cmpi_sle, hM]; have := (h i).2; omega

/-- THE TAKE IN RANGE: with every start index a row number, no row is replaced by the fill. -/
theorem take_in_range {α : Type} (x : S50000x256.Idx → α) (fill : S4096x256.Idx → α) (v : IVec S4096x1 32)
    (h : ∀ i, 0 ≤ (v i).toInt ∧ (v i).toInt < 50000) :
    select (inRangeMask v) (Host.gather gather_S50000x256_S4096x1_S4096x256_1_0_n_n_0_1_1256 x v) fill
      = Host.gather gather_S50000x256_S4096x1_S4096x256_1_0_n_n_0_1_1256 x v := by
  funext j
  show Scalar.select (inRangeMask v j) _ _ = _
  rw [inRangeMask_eq_one v h j]
  unfold Scalar.select
  exact if_pos rfl

/-- The reference gathers at the same wrapped start indices, with the same dimension numbers. -/
theorem gather_wrapIdx_eq_ref (x0 : (⟨S50000x32, .f32⟩ : BufTy).Contents (Elt Ideal)) (x3 : (⟨S32x256, .f32⟩ : BufTy).Contents (Elt Ideal))
    (x4 : (⟨S256, .f32⟩ : BufTy).Contents (Elt Ideal)) (x7 : (⟨S256x256, .f32⟩ : BufTy).Contents (Elt Ideal))
    (x8 : (⟨S256, .f32⟩ : BufTy).Contents (Elt Ideal)) (x9 : (⟨S256x256, .f32⟩ : BufTy).Contents (Elt Ideal))
    (x10 : (⟨S256, .f32⟩ : BufTy).Contents (Elt Ideal)) (x17 : (⟨S2x800000, .i32⟩ : BufTy).Contents (Elt Ideal))
    (x18 : (⟨S4096, .i32⟩ : BufTy).Contents (Elt Ideal)) :
    Host.gather gather_S50000x256_S4096x1_S4096x256_1_0_n_n_0_1_1256 (val_main_v121 (F := Ideal) x0 x3 x4 x7 x8 x9 x10 x17) (wrapIdx x18)
      = val_main_v128 (F := Ideal) x0 x3 x4 x7 x8 x9 x10 x17 x18 := rfl

variable (m : (ℓ : Loc nD τ sig) → Buf (Elt Ideal) ℓ) (ρ : Dev nD → PrngReg)

/-! ## The frame: which boundary holds what -/

/-- The selection indices are still the launch's when the take runs: no stretch and no region from there to the end writes
    them, and at the end they are the launch's. -/
theorem W10_main_arg18 (c : Dev nD) : W10 m ρ c (Proc.devRef .tc main_arg18) = m ((c.tc : Thread nD τ).loc main_arg18) := by
  have e1 : W14 m ρ c (Proc.devRef .tc main_arg18) = W13 m ρ c (Proc.devRef .tc main_arg18) :=
    StableHlo.after_of_forall_not_mem (b := Proc.devRef .tc main_arg18) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have e2 : W13 m ρ c (Proc.devRef .tc main_arg18) = W12 m ρ c (Proc.devRef .tc main_arg18) := W13_of_ne m ρ c main_arg18 (by decide)
  have e3 : W12 m ρ c (Proc.devRef .tc main_arg18) = W11 m ρ c (Proc.devRef .tc main_arg18) :=
    StableHlo.after_of_forall_not_mem (b := Proc.devRef .tc main_arg18) _ _ (List.forall_iff_forall_mem.mp (by
      simp only [hostOps5_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have e4 : W11 m ρ c (Proc.devRef .tc main_arg18) = W10 m ρ c (Proc.devRef .tc main_arg18) :=
    StableHlo.after_of_forall_not_mem (b := Proc.devRef .tc main_arg18) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact (e4.symm.trans (e3.symm.trans (e2.symm.trans e1.symm))).trans (W14_main_arg18 m ρ c)

/-- The stretch after the take does not write the take's result. -/
theorem W12_main_v82 (c : Dev nD) : W12 m ρ c (Proc.devRef .tc main_v82) = W11 m ρ c (Proc.devRef .tc main_v82) :=
  StableHlo.after_of_forall_not_mem (b := Proc.devRef .tc main_v82) _ _ (List.forall_iff_forall_mem.mp (by
    simp only [hostOps5_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- What the take leaves: the masked selection over the array and the indices it read. -/
theorem W11_main_v82 (c : Dev nD) :
    W11 m ρ c (Proc.devRef .tc main_v82)
      = select (inRangeMask (wrapIdx (W10 m ρ c (Proc.devRef .tc main_arg18))))
          (Host.gather gather_S50000x256_S4096x1_S4096x256_1_0_n_n_0_1_1256 (W10 m ρ c (Proc.devRef .tc main_v81))
            (wrapIdx (W10 m ρ c (Proc.devRef .tc main_arg18))))
          (broadcastInDim S4096x256 ![] bcast_S_S4096x256 (constant (F := Ideal) S_ .f32 0x7FC00000#32)) := by
  show StableHlo.after hostOps5 (W10 m ρ c) (Proc.devRef .tc main_v82) = _
  open StableHlo in after_results_simp
  simp only [StableHlo.TRef.toBuf, StableHlo.TRef.ofBuf, cast_cast, cast_eq]
  rfl

/-- With every selected index in range, the rows the kernel's take returns are the rows the reference gathers. -/
theorem z (c : Dev nD)
    (hidx : ∀ i : S4096.Idx, 0 ≤ ((m ((c.tc : Thread nD τ).loc main_arg18)) i).toInt ∧ ((m ((c.tc : Thread nD τ).loc main_arg18)) i).toInt < 50000)
    (e5 : W10 m ρ c (Proc.devRef .tc main_v81) = val_main_v121 (F := Ideal) (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg17))) :
    W12 m ρ c (Proc.devRef .tc main_v82) = val_main_v128 (F := Ideal) (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg17)) (m ((c.tc : Thread nD τ).loc main_arg18)) := by
  rw [W12_main_v82 m ρ c, W11_main_v82 m ρ c, W10_main_arg18 m ρ c, e5]
  exact (take_in_range _ _ _ (wrapIdx_in_range _ hidx)).trans (gather_wrapIdx_eq_ref _ _ _ _ _ _ _ _ _)

end Cert.KernelIdeal.Stage

end
-- ==== Proof.HeadRegion.lean ====
/-
  The head's region. Its grid has one point and every window's block is its whole array, so the output array at the
  region's exit is the body's payload applied to the arrays at its entry. Those arrays are the gathered rows, two
  slices of the first weight matrix, and reshaped bias and action vectors; the program's result is the region's
  one-by-one output reshaped to a vector of one entry.
-/
import proofs.«424608_j1984274891291_2_alg».proof.Defs
import proofs.«424608_j1984274891291_2_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.Stage

open Idealize.ShloMosaic Idealize.ShloMosaic.TcCoe Idealize.SL.Sem Idealize.ShloMosaic.ValueIdx
open Cert.KernelIdeal Cert.KernelIdeal.Gen
open Idealize.ShloMosaic.Pipeline (Dat Cfg Window)

section Region
variable {F : FTy → Type} [FloatOps F]
variable (V : (c : Dev nD) → (b : Ref sig .tc) → Buf (Elt F) ((c : Thread nD τ).loc b))

theorem head_off_zero : (![0, 0] : Fin 2 → Nat) = fun _ => 0 := funext fun a => by fin_cases a <;> rfl

/-- The grid has one point, and there every window's block index is zero on both axes. -/
theorem head_index_zero : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = 0 ∧ win5_9.index t (1 : Fin 2) = 0 :=
  (by decide +kernel : ∀ t : Fin grid5.N, _)

/-- Window 0's one block is its whole array. -/
theorem head_block0 (c : Dev nD) (t : Fin cfg5.N) :
    iblk5 V c 0 t = (V c main_v82 : Vec F S4096x256 .f32) := by
  unfold iblk5
  funext j
  show V c main_v82 (((cfg5.win 0).blk t).view.emb j) = V c main_v82 j
  refine congrArg _ (funext fun a => Fin.ext ?_)
  have e := head_index_zero t
  match a with
  | ⟨0, _⟩ => show win5_0.index t (0 : Fin 2) * 4096 + 1 * (j 0).val = (j 0).val; omega
  | ⟨1, _⟩ => show win5_0.index t (1 : Fin 2) * 256 + 1 * (j 1).val = (j 1).val; omega

/-- Window 1's one block is its whole array. -/
theorem head_block1 (c : Dev nD) (t : Fin cfg5.N) :
    iblk5 V c 1 t = (V c main_v85 : Vec F S4096x1 .f32) := by
  unfold iblk5
  funext j
  show V c main_v85 (((cfg5.win 1).blk t).view.emb j) = V c main_v85 j
  refine congrArg _ (funext fun a => Fin.ext ?_)
  have e := head_index_zero t
  match a with
  | ⟨0, _⟩ => show win5_1.index t (0 : Fin 2) * 4096 + 1 * (j 0).val = (j 0).val; omega
  | ⟨1, _⟩ => show win5_1.index t (1 : Fin 2) * 1 + 1 * (j 1).val = (j 1).val; omega

/-- Window 2's one block is its whole array. -/
theorem head_block2 (c : Dev nD) (t : Fin cfg5.N) :
    iblk5 V c 2 t = (V c main_v83 : Vec F S256x256 .f32) := by
  unfold iblk5
  funext j
  show V c main_v83 (((cfg5.win 2).blk t).view.emb j) = V c main_v83 j
  refine congrArg _ (funext fun a => Fin.ext ?_)
  have e := head_index_zero t
  match a with
  | ⟨0, _⟩ => show win5_2.index t (0 : Fin 2) * 256 + 1 * (j 0).val = (j 0).val; omega
  | ⟨1, _⟩ => show win5_2.index t (1 : Fin 2) * 256 + 1 * (j 1).val = (j 1).val; omega

/-- Window 3's one block is its whole array. -/
theorem head_block3 (c : Dev nD) (t : Fin cfg5.N) :
    iblk5 V c 3 t = (V c main_v84 : Vec F S1x256 .f32) := by
  unfold iblk5
  funext j
  show V c main_v84 (((cfg5.win 3).blk t).view.emb j) = V c main_v84 j
  refine congrArg _ (funext fun a => Fin.ext ?_)
  have e := head_index_zero t
  match a with
  | ⟨0, _⟩ => show win5_3.index t (0 : Fin 2) * 1 + 1 * (j 0).val = (j 0).val; omega
  | ⟨1, _⟩ => show win5_3.index t (1 : Fin 2) * 256 + 1 * (j 1).val = (j 1).val; omega

/-- Window 4's one block is its whole array. -/
theorem head_block4 (c : Dev nD) (t : Fin cfg5.N) :
    iblk5 V c 4 t = (V c main_v86 : Vec F S1x256 .f32) := by
  unfold iblk5
  funext j
  show V c main_v86 (((cfg5.win 4).blk t).view.emb j) = V c main_v86 j
  refine congrArg _ (funext fun a => Fin.ext ?_)
  have e := head_index_zero t
  match a with
  | ⟨0, _⟩ => show win5_4.index t (0 : Fin 2) * 1 + 1 * (j 0).val = (j 0).val; omega
  | ⟨1, _⟩ => show win5_4.index t (1 : Fin 2) * 256 + 1 * (j 1).val = (j 1).val; omega

/-- Window 5's one block is its whole array. -/
theorem head_block5 (c : Dev nD) (t : Fin cfg5.N) :
    iblk5 V c 5 t = (V c main_arg13 : Vec F S256x256 .f32) := by
  unfold iblk5
  funext j
  show V c main_arg13 (((cfg5.win 5).blk t).view.emb j) = V c main_arg13 j
  refine congrArg _ (funext fun a => Fin.ext ?_)
  have e := head_index_zero t
  match a with
  | ⟨0, _⟩ => show win5_5.index t (0 : Fin 2) * 256 + 1 * (j 0).val = (j 0).val; omega
  | ⟨1, _⟩ => show win5_5.index t (1 : Fin 2) * 256 + 1 * (j 1).val = (j 1).val; omega

/-- Window 6's one block is its whole array. -/
theorem head_block6 (c : Dev nD) (t : Fin cfg5.N) :
    iblk5 V c 6 t = (V c main_v87 : Vec F S1x256 .f32) := by
  unfold iblk5
  funext j
  show V c main_v87 (((cfg5.win 6).blk t).view.emb j) = V c main_v87 j
  refine congrArg _ (funext fun a => Fin.ext ?_)
  have e := head_index_zero t
  match a with
  | ⟨0, _⟩ => show win5_6.index t (0 : Fin 2) * 1 + 1 * (j 0).val = (j 0).val; omega
  | ⟨1, _⟩ => show win5_6.index t (1 : Fin 2) * 256 + 1 * (j 1).val = (j 1).val; omega

/-- Window 7's one block is its whole array. -/
theorem head_block7 (c : Dev nD) (t : Fin cfg5.N) :
    iblk5 V c 7 t = (V c main_arg15 : Vec F S256x1 .f32) := by
  unfold iblk5
  funext j
  show V c main_arg15 (((cfg5.win 7).blk t).view.emb j) = V c main_arg15 j
  refine congrArg _ (funext fun a => Fin.ext ?_)
  have e := head_index_zero t
  match a with
  | ⟨0, _⟩ => show win5_7.index t (0 : Fin 2) * 256 + 1 * (j 0).val = (j 0).val; omega
  | ⟨1, _⟩ => show win5_7.index t (1 : Fin 2) * 1 + 1 * (j 1).val = (j 1).val; omega

/-- Window 8's one block is its whole array. -/
theorem head_block8 (c : Dev nD) (t : Fin cfg5.N) :
    iblk5 V c 8 t = (V c main_v88 : Vec F S1x1 .f32) := by
  unfold iblk5
  funext j
  show V c main_v88 (((cfg5.win 8).blk t).view.emb j) = V c main_v88 j
  refine congrArg _ (funext fun a => Fin.ext ?_)
  have e := head_index_zero t
  match a with
  | ⟨0, _⟩ => show win5_8.index t (0 : Fin 2) * 1 + 1 * (j 0).val = (j 0).val; omega
  | ⟨1, _⟩ => show win5_8.index t (1 : Fin 2) * 1 + 1 * (j 1).val = (j 1).val; omega

/-- The one store of the body, read off whole staging buffers, is the payload of the loaded blocks. -/
theorem head_out (x0 : Vec F S4096x256 .f32) (x1 : Vec F S4096x1 .f32) (x2 : Vec F S256x256 .f32) (x3 : Vec F S1x256 .f32) (x4 : Vec F S1x256 .f32) (x5 : Vec F S256x256 .f32) (x6 : Vec F S1x256 .f32) (x7 : Vec F S256x1 .f32) (x8 : Vec F S1x1 .f32) :
    out5_9 x0 x1 x2 x3 x4 x5 x6 x7 x8 = k5_pay1 (k5_pay2 x0 x2 x1 x3 x4 x5 x6 x7) x8 := by
  unfold out5_9
  rw [View.canon_unit_zero head_off_zero]
  simp only [View.ld_unit_zero (S := S4096x256) head_off_zero, View.ld_unit_zero (S := S256x256) head_off_zero, View.ld_unit_zero (S := S4096x1) head_off_zero, View.ld_unit_zero (S := S1x256) head_off_zero, View.ld_unit_zero (S := S256x1) head_off_zero, View.ld_unit_zero (S := S1x1) head_off_zero]

/-- The payload of the region's arrays as it finds them. -/
abbrev headOf (c : Dev nD) : Vec F S1x1 .f32 :=
  k5_pay1 (k5_pay2 (V c main_v82) (V c main_v83) (V c main_v85) (V c main_v84) (V c main_v86) (V c main_arg13) (V c main_v87) (V c main_arg15)) (V c main_v88)

/-- What the one point writes back is the payload of the arrays, read as the output's one block. -/
theorem head_flushed (c : Dev nD) (t : Fin cfg5.N) :
    (dat5 V c).flushed 9 t = ((cfg5.win 9).blk t).view.read (Elt F) (headOf V c) := by
  show (cfg5.win 9).cut (grid5.coords t) ((dat5 V c).after 9 t) = _
  rw [after5_9, head_block0, head_block1, head_block2, head_block3, head_block4, head_block5, head_block6, head_block7, head_block8, head_out]
  funext j
  show headOf V c j = headOf V c (((cfg5.win 9).blk t).view.emb j)
  refine congrArg _ (funext fun a => Fin.ext ?_)
  have e := head_index_zero t
  match a with
  | ⟨0, _⟩ => show (j 0).val = win5_9.index t (0 : Fin 2) * 1 + 1 * (j 0).val; omega
  | ⟨1, _⟩ => show (j 1).val = win5_9.index t (1 : Fin 2) * 1 + 1 * (j 1).val; omega

/-- The output's one block covers its array. -/
theorem head_cover (i : S1x1.Idx) : ∃ t : Fin cfg5.N, (cfg5.win 9).flush t = true ∧ i ∈ ((cfg5.win 9).blk t).view.set := by
  refine ⟨t5_0, flush5_9 _, ?_⟩
  show i ∈ ((View.whole main_v89).slice (win5_9.rect t5_0)).set
  rw [View.set_slice_whole, Rect.mem_set_unit]
  have e := head_index_zero t5_0
  intro a
  match a with
  | ⟨0, _⟩ => show win5_9.index t5_0 (0 : Fin 2) * 1 ≤ (i 0).val ∧ (i 0).val < win5_9.index t5_0 (0 : Fin 2) * 1 + 1; have := (i 0).isLt; have h1 : (i 0).val < 1 := this; omega
  | ⟨1, _⟩ => show win5_9.index t5_0 (1 : Fin 2) * 1 ≤ (i 1).val ∧ (i 1).val < win5_9.index t5_0 (1 : Fin 2) * 1 + 1; have := (i 1).isLt; have h1 : (i 1).val < 1 := this; omega

/-- The output array at the region's exit is the payload of the arrays at its entry. -/
theorem head_exit (c : Dev nD) : (dat5 V c).arrAt 9 cfg5.N = headOf V c :=
  (dat5 V c).arrAt_eq_of_cover 9 (headOf V c) (fun t _ => head_flushed V c t) head_cover

end Region

section Run
variable (m : (ℓ : Loc nD τ sig) → Buf (Elt Ideal) ℓ) (ρ : Dev nD → PrngReg)

/-! The last two stretches of host operations: slices and reshapes of arguments before the region, one reshape after it. -/

theorem head_v83 (c : Dev nD) : (W12 m ρ c (Proc.devRef .tc main_v83) : Vec Ideal S256x256 .f32) = extractStridedSlice S256x256 ![0, 0] (W11 m ρ c (Proc.devRef .tc main_arg11) : Vec Ideal S257x256 .f32) slices_S257x256_S256x256_0_0 := by
  show StableHlo.after hostOps5_1 _ (Proc.devRef .tc main_v83) = _
  after_results
  all_goals rfl

theorem head_v84 (c : Dev nD) : (W12 m ρ c (Proc.devRef .tc main_v84) : Vec Ideal S1x256 .f32) = extractStridedSlice S1x256 ![256, 0] (W11 m ρ c (Proc.devRef .tc main_arg11) : Vec Ideal S257x256 .f32) slices_S257x256_S1x256_256_0 := by
  show StableHlo.after hostOps5_1 _ (Proc.devRef .tc main_v84) = _
  after_results
  all_goals rfl

theorem head_v85 (c : Dev nD) : (W12 m ρ c (Proc.devRef .tc main_v85) : Vec Ideal S4096x1 .f32) = shapeCast S4096x1 (W11 m ρ c (Proc.devRef .tc main_arg2) : Vec Ideal S4096 .f32) shapeCasts_S4096_S4096x1 := by
  show StableHlo.after hostOps5_1 _ (Proc.devRef .tc main_v85) = _
  after_results
  all_goals rfl

theorem head_v86 (c : Dev nD) : (W12 m ρ c (Proc.devRef .tc main_v86) : Vec Ideal S1x256 .f32) = shapeCast S1x256 (W11 m ρ c (Proc.devRef .tc main_arg12) : Vec Ideal S256 .f32) shapeCasts_S256_S1x256 := by
  show StableHlo.after hostOps5_1 _ (Proc.devRef .tc main_v86) = _
  after_results
  all_goals rfl

theorem head_v87 (c : Dev nD) : (W12 m ρ c (Proc.devRef .tc main_v87) : Vec Ideal S1x256 .f32) = shapeCast S1x256 (W11 m ρ c (Proc.devRef .tc main_arg14) : Vec Ideal S256 .f32) shapeCasts_S256_S1x256 := by
  show StableHlo.after hostOps5_1 _ (Proc.devRef .tc main_v87) = _
  after_results
  all_goals rfl

theorem head_v88 (c : Dev nD) : (W12 m ρ c (Proc.devRef .tc main_v88) : Vec Ideal S1x1 .f32) = shapeCast S1x1 (W11 m ρ c (Proc.devRef .tc main_arg16) : Vec Ideal S1 .f32) shapeCasts_S1_S1x1 := by
  show StableHlo.after hostOps5_1 _ (Proc.devRef .tc main_v88) = _
  after_results
  all_goals rfl

theorem head_v90 (c : Dev nD) : (W14 m ρ c (Proc.devRef .tc main_v90) : Vec Ideal S1 .f32) = shapeCast S1 (W13 m ρ c (Proc.devRef .tc main_v89) : Vec Ideal S1x1 .f32) shapeCasts_S1x1_S1 := by
  show StableHlo.after hostOps6 _ (Proc.devRef .tc main_v90) = _
  after_results
  all_goals rfl

/-- Nothing from the gather on writes argument 2: it is as launched when the last stretches read it. -/
theorem head_arg2 (c : Dev nD) : W11 m ρ c (Proc.devRef .tc main_arg2) = m ((c : Thread nD τ).loc main_arg2) :=
  calc W11 m ρ c (Proc.devRef .tc main_arg2)
    _ = W12 m ρ c (Proc.devRef .tc main_arg2) := (StableHlo.after_of_forall_not_mem _ _ (List.forall_iff_forall_mem.mp (by
          simp only [hostOps5_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = W13 m ρ c (Proc.devRef .tc main_arg2) := (W13_of_ne m ρ c main_arg2 (by decide)).symm
    _ = W14 m ρ c (Proc.devRef .tc main_arg2) := (StableHlo.after_of_forall_not_mem _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = m ((c : Thread nD τ).loc main_arg2) := W14_main_arg2 m ρ c

/-- Nothing from the gather on writes argument 11: it is as launched when the last stretches read it. -/
theorem head_arg11 (c : Dev nD) : W11 m ρ c (Proc.devRef .tc main_arg11) = m ((c : Thread nD τ).loc main_arg11) :=
  calc W11 m ρ c (Proc.devRef .tc main_arg11)
    _ = W12 m ρ c (Proc.devRef .tc main_arg11) := (StableHlo.after_of_forall_not_mem _ _ (List.forall_iff_forall_mem.mp (by
          simp only [hostOps5_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = W13 m ρ c (Proc.devRef .tc main_arg11) := (W13_of_ne m ρ c main_arg11 (by decide)).symm
    _ = W14 m ρ c (Proc.devRef .tc main_arg11) := (StableHlo.after_of_forall_not_mem _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = m ((c : Thread nD τ).loc main_arg11) := W14_main_arg11 m ρ c

/-- Nothing from the gather on writes argument 12: it is as launched when the last stretches read it. -/
theorem head_arg12 (c : Dev nD) : W11 m ρ c (Proc.devRef .tc main_arg12) = m ((c : Thread nD τ).loc main_arg12) :=
  calc W11 m ρ c (Proc.devRef .tc main_arg12)
    _ = W12 m ρ c (Proc.devRef .tc main_arg12) := (StableHlo.after_of_forall_not_mem _ _ (List.forall_iff_forall_mem.mp (by
          simp only [hostOps5_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = W13 m ρ c (Proc.devRef .tc main_arg12) := (W13_of_ne m ρ c main_arg12 (by decide)).symm
    _ = W14 m ρ c (Proc.devRef .tc main_arg12) := (StableHlo.after_of_forall_not_mem _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = m ((c : Thread nD τ).loc main_arg12) := W14_main_arg12 m ρ c

/-- Nothing from the gather on writes argument 14: it is as launched when the last stretches read it. -/
theorem head_arg14 (c : Dev nD) : W11 m ρ c (Proc.devRef .tc main_arg14) = m ((c : Thread nD τ).loc main_arg14) :=
  calc W11 m ρ c (Proc.devRef .tc main_arg14)
    _ = W12 m ρ c (Proc.devRef .tc main_arg14) := (StableHlo.after_of_forall_not_mem _ _ (List.forall_iff_forall_mem.mp (by
          simp only [hostOps5_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = W13 m ρ c (Proc.devRef .tc main_arg14) := (W13_of_ne m ρ c main_arg14 (by decide)).symm
    _ = W14 m ρ c (Proc.devRef .tc main_arg14) := (StableHlo.after_of_forall_not_mem _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = m ((c : Thread nD τ).loc main_arg14) := W14_main_arg14 m ρ c

/-- Nothing from the gather on writes argument 16: it is as launched when the last stretches read it. -/
theorem head_arg16 (c : Dev nD) : W11 m ρ c (Proc.devRef .tc main_arg16) = m ((c : Thread nD τ).loc main_arg16) :=
  calc W11 m ρ c (Proc.devRef .tc main_arg16)
    _ = W12 m ρ c (Proc.devRef .tc main_arg16) := (StableHlo.after_of_forall_not_mem _ _ (List.forall_iff_forall_mem.mp (by
          simp only [hostOps5_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = W13 m ρ c (Proc.devRef .tc main_arg16) := (W13_of_ne m ρ c main_arg16 (by decide)).symm
    _ = W14 m ρ c (Proc.devRef .tc main_arg16) := (StableHlo.after_of_forall_not_mem _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = m ((c : Thread nD τ).loc main_arg16) := W14_main_arg16 m ρ c

/-- Argument 13 is an input window of the region: as launched at its entry. -/
theorem head_arg13 (c : Dev nD) : W12 m ρ c (Proc.devRef .tc main_arg13) = m ((c : Thread nD τ).loc main_arg13) :=
  calc W12 m ρ c (Proc.devRef .tc main_arg13)
    _ = W13 m ρ c (Proc.devRef .tc main_arg13) := ((W13_arr m ρ c 5).trans (((dat5 (V12 m ρ) c).arrAt_in 5 rfl _).trans (A_eq5 (V12 m ρ) c 5))).symm
    _ = W14 m ρ c (Proc.devRef .tc main_arg13) := (StableHlo.after_of_forall_not_mem _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = m ((c : Thread nD τ).loc main_arg13) := W14_main_arg13 m ρ c

/-- Argument 15 is an input window of the region: as launched at its entry. -/
theorem head_arg15 (c : Dev nD) : W12 m ρ c (Proc.devRef .tc main_arg15) = m ((c : Thread nD τ).loc main_arg15) :=
  calc W12 m ρ c (Proc.devRef .tc main_arg15)
    _ = W13 m ρ c (Proc.devRef .tc main_arg15) := ((W13_arr m ρ c 7).trans (((dat5 (V12 m ρ) c).arrAt_in 7 rfl _).trans (A_eq5 (V12 m ρ) c 7))).symm
    _ = W14 m ρ c (Proc.devRef .tc main_arg15) := (StableHlo.after_of_forall_not_mem _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = m ((c : Thread nD τ).loc main_arg15) := W14_main_arg15 m ρ c

/-- The program's result: the payload of the gathered rows and the launch's weight arguments, reshaped. -/
theorem head_run (c : Dev nD) :
    (W14 m ρ c (Proc.devRef .tc main_v90) : Vec Ideal S1 .f32) =
      shapeCast S1 (k5_pay1 (k5_pay2 (W12 m ρ c (Proc.devRef .tc main_v82) : Vec Ideal S4096x256 .f32)
        (extractStridedSlice S256x256 ![0, 0] (m ((c : Thread nD τ).loc main_arg11) : Vec Ideal S257x256 .f32) slices_S257x256_S256x256_0_0)
        (shapeCast S4096x1 (m ((c : Thread nD τ).loc main_arg2) : Vec Ideal S4096 .f32) shapeCasts_S4096_S4096x1)
        (extractStridedSlice S1x256 ![256, 0] (m ((c : Thread nD τ).loc main_arg11) : Vec Ideal S257x256 .f32) slices_S257x256_S1x256_256_0)
        (shapeCast S1x256 (m ((c : Thread nD τ).loc main_arg12) : Vec Ideal S256 .f32) shapeCasts_S256_S1x256)
        (m ((c : Thread nD τ).loc main_arg13) : Vec Ideal S256x256 .f32)
        (shapeCast S1x256 (m ((c : Thread nD τ).loc main_arg14) : Vec Ideal S256 .f32) shapeCasts_S256_S1x256)
        (m ((c : Thread nD τ).loc main_arg15) : Vec Ideal S256x1 .f32))
        (shapeCast S1x1 (m ((c : Thread nD τ).loc main_arg16) : Vec Ideal S1 .f32) shapeCasts_S1_S1x1)) shapeCasts_S1x1_S1 := by
  have h89 : (W13 m ρ c (Proc.devRef .tc main_v89) : Vec Ideal S1x1 .f32) = headOf (V12 m ρ) c :=
    (W13_arr m ρ c 9).trans (head_exit (V12 m ρ) c)
  rw [head_v90, h89]
  show shapeCast S1 (k5_pay1 (k5_pay2 (W12 m ρ c (Proc.devRef .tc main_v82) : Vec Ideal S4096x256 .f32)
        (W12 m ρ c (Proc.devRef .tc main_v83) : Vec Ideal S256x256 .f32)
        (W12 m ρ c (Proc.devRef .tc main_v85) : Vec Ideal S4096x1 .f32)
        (W12 m ρ c (Proc.devRef .tc main_v84) : Vec Ideal S1x256 .f32)
        (W12 m ρ c (Proc.devRef .tc main_v86) : Vec Ideal S1x256 .f32)
        (W12 m ρ c (Proc.devRef .tc main_arg13) : Vec Ideal S256x256 .f32)
        (W12 m ρ c (Proc.devRef .tc main_v87) : Vec Ideal S1x256 .f32)
        (W12 m ρ c (Proc.devRef .tc main_arg15) : Vec Ideal S256x1 .f32))
        (W12 m ρ c (Proc.devRef .tc main_v88) : Vec Ideal S1x1 .f32)) shapeCasts_S1x1_S1 = _
  rw [head_v83, head_v84, head_v85, head_v86, head_v87, head_v88, head_arg13, head_arg15, head_arg2, head_arg11, head_arg12, head_arg14, head_arg16]

end Run

end Cert.KernelIdeal.Stage

end
-- ==== Proof.HeadValue.lean ====
/-
  The head's value. The body's payload is two clamped affine layers, the sum over the rows, the division by their
  number and a last projection. The reference computes the same, except that it appends the action as a 257th column
  to the rows and multiplies by the whole first weight matrix, where the kernel multiplies the rows by the first 256
  rows of that matrix and adds the action column times its last row: a sum over 257 coordinates split at its last.
  Every other stage is the same operation on both sides, the kernel's vector form against the host's.
-/
import proofs.«424608_j1984274891291_2_alg».proof.Defs
import proofs.«424608_j1984274891291_2_alg».proof.Proof.Gen.KernelIdeal.Skeleton
import proofs.«424608_j1984274891291_2_alg».proof.Proof.Gen.ReferenceIdeal.Read
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

set_option maxRecDepth 16384

noncomputable section

namespace Cert.KernelIdeal.Stage

open Idealize.ShloMosaic Idealize.ShloMosaic.ValueIdx
open Cert.KernelIdeal Cert.KernelIdeal.Gen
open Cert.ReferenceIdeal.Read (lidx_main_v131 ridx_main_v131 lhs_main_v131_0 lhs_main_v131_1 rhs_main_v131_0 rhs_main_v131_1
  lidx_main_v136 ridx_main_v136 lhs_main_v136_0 lhs_main_v136_1 rhs_main_v136_0 rhs_main_v136_1)

/-- The host's product of a [4096, 257] by a [257, 256] matrix at an index: the sum over the contracted coordinate. -/
theorem dot257_apply (y : FVec Ideal Cert.ReferenceIdeal.S4096x257 .f32) (w : FVec Ideal Cert.ReferenceIdeal.S257x256 .f32) (i : Cert.ReferenceIdeal.S4096x256.Idx) :
    Host.dotGeneral Cert.ReferenceIdeal.dot_S4096x257_S257x256_S4096x256_1_0_0_1_n_n none y w i
      = ∑ k : Fin 257, y (lidx_main_v131 i k) * w (ridx_main_v131 i k) := by
  simp only [Host.dotGeneral]
  rw [Ideal.dotGeneral_apply, ← Equiv.sum_comp (ValueIdx.contrEquiv1 Cert.ReferenceIdeal.dot_S4096x257_S257x256_S4096x256_1_0_0_1_n_n 257 rfl rfl).symm]
  refine Finset.sum_congr rfl fun k _ => ?_
  have hk := ValueIdx.contrEquiv1_symm_val Cert.ReferenceIdeal.dot_S4096x257_S257x256_S4096x256_1_0_0_1_n_n 257 rfl rfl k
  have el : (Cert.ReferenceIdeal.dot_S4096x257_S257x256_S4096x256_1_0_0_1_n_n).lhsIdx i ((ValueIdx.contrEquiv1 Cert.ReferenceIdeal.dot_S4096x257_S257x256_S4096x256_1_0_0_1_n_n 257 rfl rfl).symm k) = lidx_main_v131 i k := funext fun a => Fin.ext (by
    match a with
    | ⟨0, _⟩ => exact lhs_main_v131_0 _ _
    | ⟨1, _⟩ => exact (lhs_main_v131_1 _ _).trans hk)
  have er : (Cert.ReferenceIdeal.dot_S4096x257_S257x256_S4096x256_1_0_0_1_n_n).rhsIdx i ((ValueIdx.contrEquiv1 Cert.ReferenceIdeal.dot_S4096x257_S257x256_S4096x256_1_0_0_1_n_n 257 rfl rfl).symm k) = ridx_main_v131 i k := funext fun a => Fin.ext (by
    match a with
    | ⟨0, _⟩ => exact (rhs_main_v131_0 _ _).trans hk
    | ⟨1, _⟩ => exact rhs_main_v131_1 _ _)
  rw [el, er]

/-- The host's product of a [4096, 256] by a [256, 256] matrix at an index: the sum over the contracted coordinate. -/
theorem dot256_apply (y : FVec Ideal Cert.ReferenceIdeal.S4096x256 .f32) (w : FVec Ideal Cert.ReferenceIdeal.S256x256 .f32) (i : Cert.ReferenceIdeal.S4096x256.Idx) :
    Host.dotGeneral Cert.ReferenceIdeal.dot_S4096x256_S256x256_S4096x256_1_0_0_1_n_n none y w i
      = ∑ k : Fin 256, y (lidx_main_v136 i k) * w (ridx_main_v136 i k) := by
  simp only [Host.dotGeneral]
  rw [Ideal.dotGeneral_apply, ← Equiv.sum_comp (ValueIdx.contrEquiv1 Cert.ReferenceIdeal.dot_S4096x256_S256x256_S4096x256_1_0_0_1_n_n 256 rfl rfl).symm]
  refine Finset.sum_congr rfl fun k _ => ?_
  have hk := ValueIdx.contrEquiv1_symm_val Cert.ReferenceIdeal.dot_S4096x256_S256x256_S4096x256_1_0_0_1_n_n 256 rfl rfl k
  have el : (Cert.ReferenceIdeal.dot_S4096x256_S256x256_S4096x256_1_0_0_1_n_n).lhsIdx i ((ValueIdx.contrEquiv1 Cert.ReferenceIdeal.dot_S4096x256_S256x256_S4096x256_1_0_0_1_n_n 256 rfl rfl).symm k) = lidx_main_v136 i k := funext fun a => Fin.ext (by
    match a with
    | ⟨0, _⟩ => exact lhs_main_v136_0 _ _
    | ⟨1, _⟩ => exact (lhs_main_v136_1 _ _).trans hk)
  have er : (Cert.ReferenceIdeal.dot_S4096x256_S256x256_S4096x256_1_0_0_1_n_n).rhsIdx i ((ValueIdx.contrEquiv1 Cert.ReferenceIdeal.dot_S4096x256_S256x256_S4096x256_1_0_0_1_n_n 256 rfl rfl).symm k) = ridx_main_v136 i k := funext fun a => Fin.ext (by
    match a with
    | ⟨0, _⟩ => exact (rhs_main_v136_0 _ _).trans hk
    | ⟨1, _⟩ => exact rhs_main_v136_1 _ _)
  rw [el, er]

/-- THE ONE LAW. The rows with the action appended as a 257th column, times the whole first weight matrix, is the rows
    times its first 256 rows plus the action column times its last row: the sum over 257 coordinates splits off its last. -/
theorem first_layer (Z : FVec Ideal S4096x256 .f32) (a2 : FVec Ideal S4096 .f32) (a11 : FVec Ideal S257x256 .f32)
    (hs0 : S257x256.Slices ![0, 0] S256x256) (hs1 : S257x256.Slices ![256, 0] S1x256) (hc : S4096.ShapeCasts S4096x1)
    (hb41 : S4096x1.Broadcasts S4096x256) (hb1 : S1x256.Broadcasts S4096x256)
    (hbc : S4096.BroadcastsInDim S4096x1 ![0]) (hcat : Shape.Concatenates [S4096x256, S4096x1] Cert.ReferenceIdeal.S4096x257 1) :
    addf (Host.dotGeneral Cert.ReferenceIdeal.dot_S4096x256_S256x256_S4096x256_1_0_0_1_n_n none Z (extractStridedSlice S256x256 ![0, 0] a11 hs0))
        (mulf (broadcastTo S4096x256 (shapeCast S4096x1 a2 hc) hb41) (broadcastTo S4096x256 (extractStridedSlice S1x256 ![256, 0] a11 hs1) hb1))
      = Host.dotGeneral Cert.ReferenceIdeal.dot_S4096x257_S257x256_S4096x256_1_0_0_1_n_n none (concatenate Cert.ReferenceIdeal.S4096x257 1 [⟨S4096x256, Z⟩, ⟨S4096x1, broadcastInDim S4096x1 ![0] hbc a2⟩] hcat) a11 := by
  funext i
  obtain ⟨p, q, rfl⟩ : ∃ (p : Fin 4096) (q : Fin 256), i = ix2 p q := ⟨i 0, i 1, eq_ix2 i⟩
  rw [addf_apply, mulf_apply, dot256_apply, dot257_apply, Fin.sum_univ_castSucc (n := 256)]
  refine congrArg₂ (· + ·) ?_ ?_
  · refine Finset.sum_congr rfl fun k _ => ?_
    refine congrArg₂ (· * ·) ?_ ?_
    · exact (concatenate_pair_apply_left 1 Z _ hcat (lidx_main_v131 (ix2 p q) k.castSucc) rfl (lidx_main_v136 (ix2 p q) k)
        (fun b => by match b with | ⟨0, _⟩ => rfl | ⟨1, _⟩ => rfl)).symm
    · exact extractStridedSlice_apply ![0, 0] a11 hs0 (ridx_main_v136 (ix2 p q) k) (ridx_main_v131 (ix2 p q) k.castSucc)
        (fun a => by
          match a with
          | ⟨0, _⟩ => show k.val = 0 + k.val; omega
          | ⟨1, _⟩ => show q.val = 0 + q.val; omega)
  · refine congrArg₂ (· * ·) ?_ ?_
    · have e1 := broadcastTo_apply (shapeCast S4096x1 a2 hc) hb41 (ix2 p q) (ix2 p (0 : Fin 1)) (by
        intro a
        match a with
        | ⟨0, _⟩ => show p.val = if (4096 : Nat) = 1 then 0 else p.val; rw [if_neg (by decide)]
        | ⟨1, _⟩ => show 0 = if (1 : Nat) = 1 then 0 else q.val; rw [if_pos rfl])
      have e2 := shapeCast_apply a2 hc (ix2 p (0 : Fin 1)) (ix1 p) (by
        rw [Shape.rowMajor_val_two, Shape.rowMajor_val_one]; show p.val = p.val * 1 + 0; omega)
      have e3 := concatenate_pair_apply_right 1 Z (broadcastInDim S4096x1 ![0] hbc a2) hcat (lidx_main_v131 (ix2 p q) (Fin.last 256)) rfl rfl (ix2 p (0 : Fin 1))
        (fun b hb => by
          match b with
          | ⟨0, _⟩ => rfl
          | ⟨1, _⟩ => exact absurd rfl hb)
        (by show 0 + 256 = 256; rfl)
      have e4 := broadcastInDim_apply ![0] hbc a2 (ix2 p (0 : Fin 1)) (ix1 p) (by
        intro a
        match a with
        | ⟨0, _⟩ => show p.val = if (4096 : Nat) = 1 then 0 else p.val; rw [if_neg (by decide)])
      exact (e1.trans e2).trans (e3.trans e4).symm
    · have e1 := broadcastTo_1b_ab_apply (extractStridedSlice S1x256 ![256, 0] a11 hs1) hb1 p q
      have e2 := extractStridedSlice_apply ![256, 0] a11 hs1 (ix2 (0 : Fin 1) q) (ridx_main_v131 (ix2 p q) (Fin.last 256))
        (fun a => by
          match a with
          | ⟨0, _⟩ => show 256 = 256 + 0; rfl
          | ⟨1, _⟩ => show q.val = 0 + q.val; omega)
      exact e1.trans e2

/-- A bias vector laid along every row: the kernel's broadcast of its one-row cast is the host's two broadcasts. -/
theorem bias_rows (x : FVec Ideal S256 .f32) (h1 : S256.ShapeCasts S1x256) (hb : S1x256.Broadcasts S4096x256)
    (hbr : S256.BroadcastsInDim S1x256 ![1]) (hbc : S1x256.BroadcastsInDim S4096x256 ![0, 1]) :
    broadcastTo S4096x256 (shapeCast S1x256 x h1) hb = broadcastInDim S4096x256 ![0, 1] hbc (broadcastInDim S1x256 ![1] hbr x) := by
  funext i
  obtain ⟨p, q, rfl⟩ : ∃ (p : Fin 4096) (q : Fin 256), i = ix2 p q := ⟨i 0, i 1, eq_ix2 i⟩
  have e1 := broadcastTo_1b_ab_apply (shapeCast S1x256 x h1) hb p q
  have e2 := shapeCast_a_1a_apply x h1 (0 : Fin 1) q
  have e3 := broadcastInDim_oneRow_apply hbc (broadcastInDim S1x256 ![1] hbr x) p q
  have e4 := broadcastInDim_apply ![1] hbr x (ix2 (0 : Fin 1) q) (ix1 q) (by
    intro a
    match a with
    | ⟨0, _⟩ => show q.val = if (256 : Nat) = 1 then 0 else q.val; rw [if_neg (by decide)])
  exact (e1.trans e2).trans (e3.trans e4).symm

/-- A vector cast to one row is the host's broadcast of it along axis 1. -/
theorem row_cast (x : FVec Ideal S256 .f32) (h1 : S256.ShapeCasts S1x256) (hbr : S256.BroadcastsInDim S1x256 ![1]) :
    shapeCast S1x256 x h1 = broadcastInDim S1x256 ![1] hbr x := by
  funext i
  obtain ⟨u, q, rfl⟩ : ∃ (u : Fin 1) (q : Fin 256), i = ix2 u q := ⟨i 0, i 1, eq_ix2 i⟩
  have e2 := shapeCast_a_1a_apply x h1 u q
  have e4 := broadcastInDim_apply ![1] hbr x (ix2 u q) (ix1 q) (by
    intro a
    match a with
    | ⟨0, _⟩ => show q.val = if (256 : Nat) = 1 then 0 else q.val; rw [if_neg (by decide)])
  exact e2.trans e4.symm

/-- The one-entry bias cast to one by one is the host's broadcast of it. -/
theorem unit_cast (x : FVec Ideal S1 .f32) (h1 : S1.ShapeCasts S1x1) (hbr : S1.BroadcastsInDim S1x1 ![1]) :
    shapeCast S1x1 x h1 = broadcastInDim S1x1 ![1] hbr x := by
  funext i
  obtain ⟨u, q, rfl⟩ : ∃ (u : Fin 1) (q : Fin 1), i = ix2 u q := ⟨i 0, i 1, eq_ix2 i⟩
  have e2 := shapeCast_a_1a_apply x h1 u q
  have e4 := broadcastInDim_apply ![1] hbr x (ix2 u q) (ix1 q) (by
    intro a
    match a with
    | ⟨0, _⟩ => show q.val = if (1 : Nat) = 1 then 0 else q.val; rw [if_pos rfl]; omega)
  exact e2.trans e4.symm

/-- At exact values the host's quotient is the kernel's. -/
theorem host_div {s : Shape} (x y : FVec Ideal s .f32) : Host.divf x y = divf x y := rfl

/-! ## The payload in five stages -/

/-- The first layer: the rows times the first 256 rows of the weights, plus the action column times the last row,
    plus the bias, clamped below at zero. -/
def headLayer1 (v0 : FVec Ideal S4096x256 .f32) (v2 : FVec Ideal S256x256 .f32) (v5 : FVec Ideal S4096x1 .f32) (v7 v13 : FVec Ideal S1x256 .f32) : FVec Ideal S4096x256 .f32 :=
  maximumf (addf (addf (matmul dot_S4096x256_S256x256_S4096x256_1_0_0_1_n_n none (shapeCast S4096x256 v0 shapeCasts_S4096x256_S4096x256) (shapeCast S256x256 v2 shapeCasts_S256x256_S256x256) (constant (F := Ideal) S4096x256 .f32 0x00000000#32))
      (mulf (broadcastTo S4096x256 (shapeCast S4096x1 v5 shapeCasts_S4096x1_S4096x1) broadcasts_S4096x1_S4096x256) (broadcastTo S4096x256 (shapeCast S1x256 v7 shapeCasts_S1x256_S1x256) broadcasts_S1x256_S4096x256)))
      (broadcastTo S4096x256 (shapeCast S1x256 v13 shapeCasts_S1x256_S1x256) broadcasts_S1x256_S4096x256))
    (broadcast S4096x256 (Scalar.ofBits (F := Ideal) .f32 0x00000000#32))

/-- The second layer: times the second weights, plus the bias, clamped below at zero. -/
def headLayer2 (v18 : FVec Ideal S4096x256 .f32) (v19 : FVec Ideal S256x256 .f32) (v21 : FVec Ideal S1x256 .f32) : FVec Ideal S4096x256 .f32 :=
  maximumf (addf (matmul dot_S4096x256_S256x256_S4096x256_1_0_0_1_n_n none v18 v19 (constant (F := Ideal) S4096x256 .f32 0x00000000#32))
      (broadcastTo S4096x256 (shapeCast S1x256 v21 shapeCasts_S1x256_S1x256) broadcasts_S1x256_S4096x256))
    (broadcast S4096x256 (Scalar.ofBits (F := Ideal) .f32 0x00000000#32))

/-- The sum over the 4096 rows. -/
def headSum (v26 : FVec Ideal S4096x256 .f32) : FVec Ideal S256 .f32 :=
  multiReduction (F := Ideal) .add [0] S256 v26 0x00000000#32 reduces_S4096x256_S256 (.inl rfl) rfl

/-- The mean: the sum as one row, divided by 4096. -/
def headMean (v27 : FVec Ideal S256 .f32) : FVec Ideal S1x256 .f32 :=
  divf (shapeCast S1x256 v27 shapeCasts_S256_S1x256) (broadcast S1x256 (Scalar.ofBits (F := Ideal) .f32 0x45800000#32))

/-- The projection: the mean times the last weights, plus the last bias. -/
def headOut (v30 : FVec Ideal S1x256 .f32) (v31 : FVec Ideal S256x1 .f32) (v33 : FVec Ideal S1x1 .f32) : FVec Ideal S1x1 .f32 :=
  addf (matmul dot_S1x256_S256x1_S1x1_1_0_0_1_n_n none v30 v31 (constant (F := Ideal) S1x1 .f32 0x00000000#32)) (shapeCast S1x1 v33 shapeCasts_S1x1_S1x1)

/-- The body's payload is the composition of the five stages. -/
theorem head_pay (v0 : FVec Ideal S4096x256 .f32) (v2 : FVec Ideal S256x256 .f32) (v5 : FVec Ideal S4096x1 .f32) (v7 v13 : FVec Ideal S1x256 .f32)
    (v19 : FVec Ideal S256x256 .f32) (v21 : FVec Ideal S1x256 .f32) (v31 : FVec Ideal S256x1 .f32) (v33 : FVec Ideal S1x1 .f32) :
    k5_pay1 (k5_pay2 v0 v2 v5 v7 v13 v19 v21 v31) v33 = headOut (headMean (headSum (headLayer2 (headLayer1 v0 v2 v5 v7 v13) v19 v21))) v31 v33 := rfl

/-! ## Each stage against the reference's -/

theorem layer1_eq (x0 : FVec Ideal S50000x32 .f32) (x2 : FVec Ideal S4096 .f32) (x3 : FVec Ideal S32x256 .f32) (x4 : FVec Ideal S256 .f32) (x7 : FVec Ideal S256x256 .f32) (x8 : FVec Ideal S256 .f32) (x9 : FVec Ideal S256x256 .f32) (x10 : FVec Ideal S256 .f32) (x11 : FVec Ideal S257x256 .f32) (x12 : FVec Ideal S256 .f32) (x13 : FVec Ideal S256x256 .f32) (x14 : FVec Ideal S256 .f32) (x15 : FVec Ideal S256x1 .f32) (x16 : FVec Ideal S1 .f32) (x17 : (⟨S2x800000, .i32⟩ : BufTy).Contents (Elt Ideal)) (x18 : (⟨S4096, .i32⟩ : BufTy).Contents (Elt Ideal)) :
    headLayer1 (Cert.ReferenceIdeal.Read.val_main_v128 (F := Ideal) x0 x3 x4 x7 x8 x9 x10 x17 x18) (extractStridedSlice S256x256 ![0, 0] x11 slices_S257x256_S256x256_0_0)
        (shapeCast S4096x1 x2 shapeCasts_S4096_S4096x1) (extractStridedSlice S1x256 ![256, 0] x11 slices_S257x256_S1x256_256_0)
        (shapeCast S1x256 x12 shapeCasts_S256_S1x256)
      = Cert.ReferenceIdeal.Read.val_main_v135 (F := Ideal) x0 x2 x3 x4 x7 x8 x9 x10 x11 x12 x17 x18 := by
  unfold Cert.ReferenceIdeal.Read.val_main_v135 Cert.ReferenceIdeal.Read.val_main_call2_v0 Cert.ReferenceIdeal.Read.val_main_call2_cst Cert.ReferenceIdeal.Read.val_main_v134 Cert.ReferenceIdeal.Read.val_main_v133 Cert.ReferenceIdeal.Read.val_main_v132 Cert.ReferenceIdeal.Read.val_main_v131 Cert.ReferenceIdeal.Read.val_main_v130 Cert.ReferenceIdeal.Read.val_main_v129 headLayer1
  generalize Cert.ReferenceIdeal.Read.val_main_v128 (F := Ideal) x0 x3 x4 x7 x8 x9 x10 x17 x18 = Z
  simp only [shapeCast_self]
  rw [show (dot_S4096x256_S256x256_S4096x256_1_0_0_1_n_n : DotDims S4096x256 S256x256 S4096x256) = Cert.ReferenceIdeal.dot_S4096x256_S256x256_S4096x256_1_0_0_1_n_n from rfl]
  rw [matmul_zero_eq_dotGeneral]
  rw [first_layer Z x2 x11 slices_S257x256_S256x256_0_0 slices_S257x256_S1x256_256_0 shapeCasts_S4096_S4096x1 broadcasts_S4096x1_S4096x256 broadcasts_S1x256_S4096x256 Cert.ReferenceIdeal.Gen.bcast_S4096_S4096x1_0 Cert.ReferenceIdeal.Gen.concatenates_S4096x256_S4096x1_S4096x257_d1]
  rw [bias_rows x12 shapeCasts_S256_S1x256 broadcasts_S1x256_S4096x256 Cert.ReferenceIdeal.Gen.bcast_S256_S1x256_1 Cert.ReferenceIdeal.Gen.bcast_S1x256_S4096x256_0_1]
  rw [broadcastInDim_constant]

theorem layer2_eq (x0 : FVec Ideal S50000x32 .f32) (x2 : FVec Ideal S4096 .f32) (x3 : FVec Ideal S32x256 .f32) (x4 : FVec Ideal S256 .f32) (x7 : FVec Ideal S256x256 .f32) (x8 : FVec Ideal S256 .f32) (x9 : FVec Ideal S256x256 .f32) (x10 : FVec Ideal S256 .f32) (x11 : FVec Ideal S257x256 .f32) (x12 : FVec Ideal S256 .f32) (x13 : FVec Ideal S256x256 .f32) (x14 : FVec Ideal S256 .f32) (x15 : FVec Ideal S256x1 .f32) (x16 : FVec Ideal S1 .f32) (x17 : (⟨S2x800000, .i32⟩ : BufTy).Contents (Elt Ideal)) (x18 : (⟨S4096, .i32⟩ : BufTy).Contents (Elt Ideal)) :
    headLayer2 (Cert.ReferenceIdeal.Read.val_main_v135 (F := Ideal) x0 x2 x3 x4 x7 x8 x9 x10 x11 x12 x17 x18) x13 (shapeCast S1x256 x14 shapeCasts_S256_S1x256) = Cert.ReferenceIdeal.Read.val_main_v140 (F := Ideal) x0 x2 x3 x4 x7 x8 x9 x10 x11 x12 x13 x14 x17 x18 := by
  unfold Cert.ReferenceIdeal.Read.val_main_v140 Cert.ReferenceIdeal.Read.val_main_call3_v0 Cert.ReferenceIdeal.Read.val_main_call3_cst Cert.ReferenceIdeal.Read.val_main_v139 Cert.ReferenceIdeal.Read.val_main_v138 Cert.ReferenceIdeal.Read.val_main_v137 Cert.ReferenceIdeal.Read.val_main_v136 headLayer2
  generalize Cert.ReferenceIdeal.Read.val_main_v135 (F := Ideal) x0 x2 x3 x4 x7 x8 x9 x10 x11 x12 x17 x18 = H
  simp only [shapeCast_self]
  rw [show (dot_S4096x256_S256x256_S4096x256_1_0_0_1_n_n : DotDims S4096x256 S256x256 S4096x256) = Cert.ReferenceIdeal.dot_S4096x256_S256x256_S4096x256_1_0_0_1_n_n from rfl]
  rw [matmul_zero_eq_dotGeneral]
  rw [bias_rows x14 shapeCasts_S256_S1x256 broadcasts_S1x256_S4096x256 Cert.ReferenceIdeal.Gen.bcast_S256_S1x256_1 Cert.ReferenceIdeal.Gen.bcast_S1x256_S4096x256_0_1]
  rw [broadcastInDim_constant]

theorem sum_eq (x0 : FVec Ideal S50000x32 .f32) (x2 : FVec Ideal S4096 .f32) (x3 : FVec Ideal S32x256 .f32) (x4 : FVec Ideal S256 .f32) (x7 : FVec Ideal S256x256 .f32) (x8 : FVec Ideal S256 .f32) (x9 : FVec Ideal S256x256 .f32) (x10 : FVec Ideal S256 .f32) (x11 : FVec Ideal S257x256 .f32) (x12 : FVec Ideal S256 .f32) (x13 : FVec Ideal S256x256 .f32) (x14 : FVec Ideal S256 .f32) (x15 : FVec Ideal S256x1 .f32) (x16 : FVec Ideal S1 .f32) (x17 : (⟨S2x800000, .i32⟩ : BufTy).Contents (Elt Ideal)) (x18 : (⟨S4096, .i32⟩ : BufTy).Contents (Elt Ideal)) :
    headSum (Cert.ReferenceIdeal.Read.val_main_v140 (F := Ideal) x0 x2 x3 x4 x7 x8 x9 x10 x11 x12 x13 x14 x17 x18) = Cert.ReferenceIdeal.Read.val_main_v141 (F := Ideal) x0 x2 x3 x4 x7 x8 x9 x10 x11 x12 x13 x14 x17 x18 := by
  unfold Cert.ReferenceIdeal.Read.val_main_v141 Cert.ReferenceIdeal.Read.val_main_cst_28 headSum
  generalize Cert.ReferenceIdeal.Read.val_main_v140 (F := Ideal) x0 x2 x3 x4 x7 x8 x9 x10 x11 x12 x13 x14 x17 x18 = H
  exact multiReduction_add_eq_hostReduceAdd _ _ _ _ _ _ _ _ Ideal.ofBits_zero_f32

theorem mean_eq (x0 : FVec Ideal S50000x32 .f32) (x2 : FVec Ideal S4096 .f32) (x3 : FVec Ideal S32x256 .f32) (x4 : FVec Ideal S256 .f32) (x7 : FVec Ideal S256x256 .f32) (x8 : FVec Ideal S256 .f32) (x9 : FVec Ideal S256x256 .f32) (x10 : FVec Ideal S256 .f32) (x11 : FVec Ideal S257x256 .f32) (x12 : FVec Ideal S256 .f32) (x13 : FVec Ideal S256x256 .f32) (x14 : FVec Ideal S256 .f32) (x15 : FVec Ideal S256x1 .f32) (x16 : FVec Ideal S1 .f32) (x17 : (⟨S2x800000, .i32⟩ : BufTy).Contents (Elt Ideal)) (x18 : (⟨S4096, .i32⟩ : BufTy).Contents (Elt Ideal)) :
    headMean (Cert.ReferenceIdeal.Read.val_main_v141 (F := Ideal) x0 x2 x3 x4 x7 x8 x9 x10 x11 x12 x13 x14 x17 x18) = Cert.ReferenceIdeal.Read.val_main_v144 (F := Ideal) x0 x2 x3 x4 x7 x8 x9 x10 x11 x12 x13 x14 x17 x18 := by
  unfold Cert.ReferenceIdeal.Read.val_main_v144 Cert.ReferenceIdeal.Read.val_main_v143 Cert.ReferenceIdeal.Read.val_main_cst_29 Cert.ReferenceIdeal.Read.val_main_v142 headMean
  generalize Cert.ReferenceIdeal.Read.val_main_v141 (F := Ideal) x0 x2 x3 x4 x7 x8 x9 x10 x11 x12 x13 x14 x17 x18 = H
  rw [row_cast H shapeCasts_S256_S1x256 Cert.ReferenceIdeal.Gen.bcast_S256_S1x256_1, broadcastInDim_constant, host_div]

theorem out_eq (x0 : FVec Ideal S50000x32 .f32) (x2 : FVec Ideal S4096 .f32) (x3 : FVec Ideal S32x256 .f32) (x4 : FVec Ideal S256 .f32) (x7 : FVec Ideal S256x256 .f32) (x8 : FVec Ideal S256 .f32) (x9 : FVec Ideal S256x256 .f32) (x10 : FVec Ideal S256 .f32) (x11 : FVec Ideal S257x256 .f32) (x12 : FVec Ideal S256 .f32) (x13 : FVec Ideal S256x256 .f32) (x14 : FVec Ideal S256 .f32) (x15 : FVec Ideal S256x1 .f32) (x16 : FVec Ideal S1 .f32) (x17 : (⟨S2x800000, .i32⟩ : BufTy).Contents (Elt Ideal)) (x18 : (⟨S4096, .i32⟩ : BufTy).Contents (Elt Ideal)) :
    headOut (Cert.ReferenceIdeal.Read.val_main_v144 (F := Ideal) x0 x2 x3 x4 x7 x8 x9 x10 x11 x12 x13 x14 x17 x18) x15 (shapeCast S1x1 x16 shapeCasts_S1_S1x1) = Cert.ReferenceIdeal.Read.val_main_v147 (F := Ideal) x0 x2 x3 x4 x7 x8 x9 x10 x11 x12 x13 x14 x15 x16 x17 x18 := by
  unfold Cert.ReferenceIdeal.Read.val_main_v147 Cert.ReferenceIdeal.Read.val_main_v146 Cert.ReferenceIdeal.Read.val_main_v145 headOut
  generalize Cert.ReferenceIdeal.Read.val_main_v144 (F := Ideal) x0 x2 x3 x4 x7 x8 x9 x10 x11 x12 x13 x14 x17 x18 = H
  simp only [shapeCast_self]
  rw [show (dot_S1x256_S256x1_S1x1_1_0_0_1_n_n : DotDims S1x256 S256x1 S1x1) = Cert.ReferenceIdeal.dot_S1x256_S256x1_S1x1_1_0_0_1_n_n from rfl]
  rw [matmul_zero_eq_dotGeneral, unit_cast x16 shapeCasts_S1_S1x1 Cert.ReferenceIdeal.Gen.bcast_S1_S1x1_1]

/-- The kernel's payload of the gathered rows and the weight arguments is the reference's head of them. -/
theorem head_value (x0 : FVec Ideal S50000x32 .f32) (x2 : FVec Ideal S4096 .f32) (x3 : FVec Ideal S32x256 .f32) (x4 : FVec Ideal S256 .f32) (x7 : FVec Ideal S256x256 .f32) (x8 : FVec Ideal S256 .f32) (x9 : FVec Ideal S256x256 .f32) (x10 : FVec Ideal S256 .f32) (x11 : FVec Ideal S257x256 .f32) (x12 : FVec Ideal S256 .f32) (x13 : FVec Ideal S256x256 .f32) (x14 : FVec Ideal S256 .f32) (x15 : FVec Ideal S256x1 .f32) (x16 : FVec Ideal S1 .f32) (x17 : (⟨S2x800000, .i32⟩ : BufTy).Contents (Elt Ideal)) (x18 : (⟨S4096, .i32⟩ : BufTy).Contents (Elt Ideal)) :
    k5_pay1 (k5_pay2 (Cert.ReferenceIdeal.Read.val_main_v128 (F := Ideal) x0 x3 x4 x7 x8 x9 x10 x17 x18)
        (extractStridedSlice S256x256 ![0, 0] x11 slices_S257x256_S256x256_0_0)
        (shapeCast S4096x1 x2 shapeCasts_S4096_S4096x1)
        (extractStridedSlice S1x256 ![256, 0] x11 slices_S257x256_S1x256_256_0)
        (shapeCast S1x256 x12 shapeCasts_S256_S1x256)
        x13
        (shapeCast S1x256 x14 shapeCasts_S256_S1x256)
        x15)
        (shapeCast S1x1 x16 shapeCasts_S1_S1x1)
      = Cert.ReferenceIdeal.Read.val_main_v147 (F := Ideal) x0 x2 x3 x4 x7 x8 x9 x10 x11 x12 x13 x14 x15 x16 x17 x18 := by
  rw [head_pay, layer1_eq x0 x2 x3 x4 x7 x8 x9 x10 x11 x12 x13 x14 x15 x16 x17 x18, layer2_eq x0 x2 x3 x4 x7 x8 x9 x10 x11 x12 x13 x14 x15 x16 x17 x18, sum_eq x0 x2 x3 x4 x7 x8 x9 x10 x11 x12 x13 x14 x15 x16 x17 x18, mean_eq x0 x2 x3 x4 x7 x8 x9 x10 x11 x12 x13 x14 x15 x16 x17 x18, out_eq x0 x2 x3 x4 x7 x8 x9 x10 x11 x12 x13 x14 x15 x16 x17 x18]

end Cert.KernelIdeal.Stage

end
-- ==== Proof.StageQ.lean ====
/-
  The head. Region 5 computes two clamped affine layers, the first with the action column handled as a separate
  rank-one term, the mean over the selected rows and the final projection; the reference does the same with the
  action column concatenated to the rows.
-/
import proofs.«424608_j1984274891291_2_alg».proof.Defs
import proofs.«424608_j1984274891291_2_alg».proof.Proof.Gen.KernelIdeal.Frame
import proofs.«424608_j1984274891291_2_alg».proof.Proof.Gen.ReferenceIdeal.Read
import proofs.«424608_j1984274891291_2_alg».proof.Proof.HeadRegion
import proofs.«424608_j1984274891291_2_alg».proof.Proof.HeadValue
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Stage

open Idealize.ShloMosaic Idealize.ShloMosaic.TcCoe Idealize.SL.Sem Idealize.ShloMosaic.ValueIdx
open Cert.KernelIdeal Cert.KernelIdeal.Gen
open Cert.ReferenceIdeal.Read (val_main_v7 val_main_v12 val_main_v66 val_main_v67 val_main_v121 val_main_v128 val_main_v148)

variable (m : (ℓ : Loc nD τ sig) → Buf (Elt Ideal) ℓ) (ρ : Dev nD → PrngReg)

/-- The kernel's result is the reference's. -/
theorem q (c : Dev nD)
    (e6 : W12 m ρ c (Proc.devRef .tc main_v82) = val_main_v128 (F := Ideal) (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg17)) (m ((c.tc : Thread nD τ).loc main_arg18))) :
    W14 m ρ c (Proc.devRef .tc main_v90) = val_main_v148 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  -- the run's last buffer is the body's payload of the region's arrays, reshaped; the gathered rows are the reference's
  rw [head_run m ρ c, e6]
  -- the reference's result is its one-by-one head reshaped the same way
  unfold val_main_v148
  refine congrArg (fun v => shapeCast S1 v shapeCasts_S1x1_S1) ?_
  exact head_value _ _ _ _ _ _ _ _ _ _ _ _ _ _ _ _

end Cert.KernelIdeal.Stage

end
-- ==== Proof.lean ====
/-
  The certificate's claims.

  The kernel's program is six pallas_calls among host operations: the node embedding `x @ Wn + bn`; twice a
  normalized-adjacency layer `relu (D^-1/2 (A + I) D^-1/2 (h @ W) + b)`, whose projection `h @ W` and whose
  `relu (· + b)` run in kernels while the degree normalization, the gather of the source rows and the scatter-add
  onto the destination rows are host operations; a selection of rows; and a head of two clamped affine layers, a mean
  over the selected rows and a final projection. The reference computes the same values with host operations only.

  Over the extended reals the two differ in four places, none of which needs finiteness: a projection adds a zero
  row; the kernel scatter-adds the messages onto the self-loop term where the reference scatter-adds onto zeros and
  adds the self-loop term afterwards (addition is commutative and associative); the head multiplies the selected rows
  by the first 256 rows of the weight and adds the action column times the last row, where the reference multiplies
  the concatenation by the whole weight (a sum over 257 terms split as 256 + 1); and the selection: the kernel's take
  fills a row whose index is out of range with a fill value where the reference's gather clamps the index, so the two
  agree exactly where every selection index is a node number, which the precondition says.

  Each stage module shows that one array of the kernel's run is the reference's corresponding stage; the run itself,
  with the result array named, is the generated frame's launch called once more.
-/
import proofs.«424608_j1984274891291_2_alg».proof.Defs
import proofs.«424608_j1984274891291_2_alg».proof.Proof.Gen.Kernel
import proofs.«424608_j1984274891291_2_alg».proof.Proof.Gen.Kernel.Skeleton
import proofs.«424608_j1984274891291_2_alg».proof.Proof.Gen.Kernel.Launch
import proofs.«424608_j1984274891291_2_alg».proof.Proof.Gen.Kernel.Points
import proofs.«424608_j1984274891291_2_alg».proof.Proof.Gen.Kernel.Frame
import proofs.«424608_j1984274891291_2_alg».proof.Proof.Gen.KernelIdeal
import proofs.«424608_j1984274891291_2_alg».proof.Proof.Gen.KernelIdeal.Skeleton
import proofs.«424608_j1984274891291_2_alg».proof.Proof.Gen.KernelIdeal.Launch
import proofs.«424608_j1984274891291_2_alg».proof.Proof.Gen.KernelIdeal.Points
import proofs.«424608_j1984274891291_2_alg».proof.Proof.Gen.KernelIdeal.Frame
import proofs.«424608_j1984274891291_2_alg».proof.Proof.Gen.ReferenceIdeal
import proofs.«424608_j1984274891291_2_alg».proof.Proof.Gen.ReferenceIdeal.Run
import proofs.«424608_j1984274891291_2_alg».proof.Proof.Gen.ReferenceIdeal.Read
import proofs.«424608_j1984274891291_2_alg».proof.Proof.Gen.Pre_finite_inputs
import proofs.«424608_j1984274891291_2_alg».proof.Proof.KRun
import proofs.«424608_j1984274891291_2_alg».proof.Proof.PreRange
import proofs.«424608_j1984274891291_2_alg».proof.Proof.StageH0
import proofs.«424608_j1984274891291_2_alg».proof.Proof.StageHW1
import proofs.«424608_j1984274891291_2_alg».proof.Proof.StageH1
import proofs.«424608_j1984274891291_2_alg».proof.Proof.StageHW2
import proofs.«424608_j1984274891291_2_alg».proof.Proof.StageH2
import proofs.«424608_j1984274891291_2_alg».proof.Proof.StageZ
import proofs.«424608_j1984274891291_2_alg».proof.Proof.StageQ
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's last stage of the shared arguments: the kernel's by the chain of stage
    equalities, under the precondition's range of the selection indices. -/
theorem algebraic : Cert.algebraic_KernelIdeal_ReferenceIdeal := by
  intro m ρ m' ρ' hpre hagree
  refine ⟨fun c => Cert.KernelIdeal.Gen.W14 m ρ c (Proc.devRef .tc Cert.KernelIdeal.main_v90),
    Cert.KernelIdeal.KRun.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v148_eq]
  obtain ⟨g0, g1, g2, g3, g4, g5, g6, g7, g8, g9, g10, g11, g12, g13, g14, g15, g16, g17, g18⟩ := hagree c
  rw [g0, g2, g3, g4, g7, g8, g9, g10, g11, g12, g13, g14, g15, g16, g17, g18]
  exact (Cert.KernelIdeal.Stage.q m ρ c (Cert.KernelIdeal.Stage.z m ρ c (Cert.KernelIdeal.Stage.sgen_in_range m hpre c)
    (Cert.KernelIdeal.Stage.LayerTwo.h2 m ρ c (Cert.KernelIdeal.Stage.hw2 m ρ c (Cert.KernelIdeal.Stage.h1 m ρ c (Cert.KernelIdeal.Stage.hw1 m ρ c (Cert.KernelIdeal.Stage.h0 m ρ c))))))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
